-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2048x2048 : Shape := ⟨2, ![2048, 2048]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x2048x1024 .f32) (main_arg1 : FVec F S2048x2048 .f32) (main_arg2 : FVec F S3072x1024 .f32) (main_arg3 : FVec F S3072 .f32) (main_arg4 : FVec F S1024x1024 .f32) (main_arg5 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S2x2048x1024 : Shape := ⟨3, ![2, 2048, 1024]⟩
abbrev S2048x2048 : Shape := ⟨2, ![2048, 2048]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S3072x1 : Shape := ⟨2, ![3072, 1]⟩
abbrev S1024x3072 : Shape := ⟨2, ![1024, 3072]⟩
abbrev S4096x1024 : Shape := ⟨2, ![4096, 1024]⟩
abbrev S512x1024 : Shape := ⟨2, ![512, 1024]⟩
abbrev S512x3072 : Shape := ⟨2, ![512, 3072]⟩
abbrev S1x3072 : Shape := ⟨2, ![1, 3072]⟩
abbrev S1x512x128 : Shape := ⟨3, ![1, 512, 128]⟩
abbrev S1x2048x128 : Shape := ⟨3, ![1, 2048, 128]⟩
abbrev S512x2048 : Shape := ⟨2, ![512, 2048]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S64x2048 : Shape := ⟨2, ![64, 2048]⟩
abbrev S512 : Shape := ⟨1, ![512]⟩
abbrev S512x1 : Shape := ⟨2, ![512, 1]⟩
abbrev S1x1024 : Shape := ⟨2, ![1, 1024]⟩

abbrev nBuf : Space → Nat
  | .hbm => 36
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S2048x2048, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S3072, .i32⟩
  | .hbm, ⟨7, _⟩ => ⟨S3072, .i1⟩
  | .hbm, ⟨8, _⟩ => ⟨S3072, .i1⟩
  | .hbm, ⟨9, _⟩ => ⟨S_, .i32⟩
  | .hbm, ⟨10, _⟩ => ⟨S3072, .i32⟩
  | .hbm, ⟨11, _⟩ => ⟨S3072, .i32⟩
  | .hbm, ⟨12, _⟩ => ⟨S3072, .i32⟩
  | .hbm, ⟨13, _⟩ => ⟨S3072x1, .i32⟩
  | .hbm, ⟨14, _⟩ => ⟨S3072x1024, .f32⟩
  | .hbm, ⟨15, _⟩ => ⟨S_, .i32⟩
  | .hbm, ⟨16, _⟩ => ⟨S3072, .i32⟩
  | .hbm, ⟨17, _⟩ => ⟨S3072, .i32⟩
  | .hbm, ⟨18, _⟩ => ⟨S3072, .i32⟩
  | .hbm, ⟨19, _⟩ => ⟨S3072x1, .i32⟩
  | .hbm, ⟨20, _⟩ => ⟨S3072, .f32⟩
  | .hbm, ⟨21, _⟩ => ⟨S1024x3072, .f32⟩
  | .hbm, ⟨22, _⟩ => ⟨S1024x3072, .bf16⟩
  | .hbm, ⟨23, _⟩ => ⟨S1024x1024, .f32⟩
  | .hbm, ⟨24, _⟩ => ⟨S1024x1024, .bf16⟩
  | .hbm, ⟨25, _⟩ => ⟨S4096x1024, .f32⟩
  | .hbm, ⟨26, _⟩ => ⟨S4096x1024, .bf16⟩
  | .hbm, ⟨27, _⟩ => ⟨S4096x1024, .bf16⟩
  | .hbm, ⟨28, _⟩ => ⟨S4096x1024, .bf16⟩
  | .hbm, ⟨29, _⟩ => ⟨S2x2048x1024, .bf16⟩
  | .hbm, ⟨30, _⟩ => ⟨S2x2048x1024, .bf16⟩
  | .hbm, ⟨31, _⟩ => ⟨S2x2048x1024, .bf16⟩
  | .hbm, ⟨32, _⟩ => ⟨S2x2048x1024, .bf16⟩
  | .hbm, ⟨33, _⟩ => ⟨S4096x1024, .bf16⟩
  | .hbm, ⟨34, _⟩ => ⟨S4096x1024, .f32⟩
  | .hbm, ⟨35, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x128, .bf16⟩
  | .local _ .vmem, ⟨11, _⟩ => ⟨S1x512x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S512x2048, .f32⟩
  | .local _ .vmem, ⟨17, _⟩ => ⟨S1x512x128, .bf16⟩
  | .local _ .vmem, ⟨18, _⟩ => ⟨S1x512x128, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1024, .f32⟩
  | .local _ .vmem, ⟨23, _⟩ => ⟨S512x1024, .f32⟩
  | .local _ .vmem, ⟨24, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 2, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 1 → Memref sig .tc .vmem S512x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false, false]

abbrev stage1_4 : Fin 2 → Memref sig .tc .vmem S1x512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S3072 : S_.BroadcastsInDim S3072 (![] : Fin 0 → Fin S3072.rank)
  bcast_S3072_S3072x1_0 : S3072.BroadcastsInDim S3072x1 (![0] : Fin 1 → Fin S3072x1.rank)
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S4096x1024_S2x2048x1024 : S4096x1024.ShapeCasts S2x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S512x2048_S512x2048_0_0 : ∀ a, (![0, 0] : Fin 2 → Nat) a + S512x2048.size a ≤ S512x2048.size a
  h_S512x2048 : 0 < S512x2048.numel
  slices_S512x128_o0_0_S512x64 : S512x128.Slices ![0, 0] S512x64
  slices_S512x128_o0_64_S512x64 : S512x128.Slices ![0, 64] S512x64
  slices_S2048x128_o0_0_S2048x64 : S2048x128.Slices ![0, 0] S2048x64
  slices_S2048x128_o0_64_S2048x64 : S2048x128.Slices ![0, 64] S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  gather_S3072x1024_S3072x1_S3072x1024_1_0_n_n_0_1_11024_wf : GatherDims.WF S3072x1024 S3072x1 S3072x1024 [1] [0] [] [0] [] 1 ![1, 1024]
  gather_S3072_S3072x1_S3072_n_0_n_n_0_1_1_wf : GatherDims.WF S3072 S3072x1 S3072 [] [0] [] [0] [] 1 ![1]
  dot_S512x1024_S1024x3072_S512x3072_1_0_0_1_n_n_wf : DotDims.WF S512x1024 S1024x3072 S512x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x1024.size a
  hwx1_0 : ∀ i : grid1.Coords, EltTy.bits .bf16 = 32 ∨ (Rect.block (s := S2x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x1024.size a
  hwx1_1 : ∀ i : grid1.Coords, EltTy.bits .bf16 = 32 ∨ (Rect.block (s := S2x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x1024.size a
  hwx1_2 : ∀ i : grid1.Coords, EltTy.bits .bf16 = 32 ∨ (Rect.block (s := S2x2048x1024) S1x2048x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S2048x2048.size a
  hwx1_3 : ∀ i : grid1.Coords, EltTy.bits .f32 = 32 ∨ (Rect.block (s := S2048x2048) S512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S2x2048x1024.size a
  hwx1_4 : ∀ i : grid1.Coords, EltTy.bits .bf16 = 32 ∨ (Rect.block (s := S2x2048x1024) S1x512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def gather_S3072x1024_S3072x1_S3072x1024_1_0_n_n_0_1_11024 : GatherDims S3072x1024 S3072x1 S3072x1024 where
  offsetDims := [1]
  collapsedSliceDims := [0]
  operandBatchingDims := []
  startIndicesBatchingDims := []
  startIndexMap := [0]
  indexVectorDim := 1
  sliceSizes := ![1, 1024]
  wf := gather_S3072x1024_S3072x1_S3072x1024_1_0_n_n_0_1_11024_wf
def gather_S3072_S3072x1_S3072_n_0_n_n_0_1_1 : GatherDims S3072 S3072x1 S3072 where
  offsetDims := []
  collapsedSliceDims := [0]
  operandBatchingDims := []
  startIndicesBatchingDims := []
  startIndexMap := [0]
  indexVectorDim := 1
  sliceSizes := ![1]
  wf := gather_S3072_S3072x1_S3072_n_0_n_n_0_1_1_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v14) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v20) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S2048x2048 : Shape := ⟨2, ![2048, 2048]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2048x2048, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S2x2048x3072, .f32⟩
  | .hbm, ⟨7, _⟩ => ⟨S1x1x3072, .f32⟩
  | .hbm, ⟨8, _⟩ => ⟨S2x2048x3072, .f32⟩
  | .hbm, ⟨9, _⟩ => ⟨S2x2048x3072, .f32⟩
  | .hbm, ⟨10, _⟩ => ⟨S2x2048x16x192, .f32⟩
  | .hbm, ⟨11, _⟩ => ⟨S2x16x2048x192, .f32⟩
  | .hbm, ⟨12, _⟩ => ⟨S2x16x2048x64, .f32⟩
  | .hbm, ⟨13, _⟩ => ⟨S2x16x2048x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S1x1x2048x2048, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S_, .f32⟩
  | .hbm, ⟨26, _⟩ => ⟨S2x16x2048, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x64, .f32⟩
  | .hbm, ⟨38, _⟩ => ⟨S2x2048x16x64, .f32⟩
  | .hbm, ⟨39, _⟩ => ⟨S2x2048x1024, .f32⟩
  | .hbm, ⟨40, _⟩ => ⟨S2x2048x1024, .f32⟩
  | .hbm, ⟨41, _⟩ => ⟨S1x1x1024, .f32⟩
  | .hbm, ⟨42, _⟩ => ⟨S2x2048x1024, .f32⟩
  | .hbm, ⟨43, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Spec.lean ====
/-
  The mathematics of the certificate, free of either program: multi-head attention over x : [2, 2048, 1024]
  with 16 heads of width 64.

  * `proj`: the fused projection, entry (b, s, e) = Σ_d x[b,s,d] · W[e,d] + bias[e], e < 3072. Head h owns the
    columns 192h … 192h+191: its queries at 192h + d, its keys at 192h + 64 + d, its values at 192h + 128 + d.
  * One output entry of one head, from a query row q, key rows k t, a value column v t and a mask row mk t, is written
    twice: `kAttn` scales the query by 1/8 BEFORE the 64-term product, and divides the weighted sum of the values
    by the normaliser AFTER summing; `rAttn` divides the product by sqrt 64 afterwards and normalises every weight
    before the values are summed. Over real entries the two are one number: 1/8 = 1/sqrt 64, a finite constant moves
    across a finite sum, and a quotient by a positive real moves across a finite sum (`attn_eq`).
  * `outK` / `outR`: the output projection Σ_d att[b,s,d] · Wo[e,d] + bo[e] over either form.
-/
import Idealize.ShloMosaic.PureOps.Ideal
import Idealize.ShloMosaic.PureOps.Ideal.Laws
import Idealize.ShloMosaic.Lib.ValueIdx

noncomputable section

namespace Cert.MHA

open Idealize.ShloMosaic Idealize.ShloMosaic.ValueIdx

/-! ## Shapes and the four float words the programs spell -/

abbrev Sx : Shape := ⟨3, ![2, 2048, 1024]⟩
abbrev Smask : Shape := ⟨2, ![2048, 2048]⟩
abbrev SWq : Shape := ⟨2, ![3072, 1024]⟩
abbrev Sbq : Shape := ⟨1, ![3072]⟩
abbrev SWo : Shape := ⟨2, ![1024, 1024]⟩
abbrev Sbo : Shape := ⟨1, ![1024]⟩
abbrev Srows : Shape := ⟨2, ![4096, 1024]⟩
abbrev SWt : Shape := ⟨2, ![1024, 3072]⟩

/-- 0.125 as the kernel spells it. -/
abbrev c8 : EReal := Ideal.ofBits .f32 0x3E000000#32
/-- 64.0 as the reference spells it. -/
abbrev c64 : EReal := Ideal.ofBits .f32 0x42800000#32
/-- The word of minus infinity, the initial value of both row maxima. -/
abbrev ninf : EReal := Ideal.ofBits .f32 0xFF800000#32
/-- The zero word, the initial value of the reference's row sum. -/
abbrev z0 : EReal := Ideal.ofBits .f32 0x00000000#32

/-! ## One entry of one head, in the kernel's order and in the reference's -/

/-- The kernel's logit against key row `t`: the query scaled first. -/
def kScore (q : Fin 64 → EReal) (k : Fin 2048 → Fin 64 → EReal) (mk : Fin 2048 → EReal) (t : Fin 2048) : EReal :=
  (∑ d : Fin 64, (q d * c8) * k t d) + mk t

/-- The kernel's entry: the exponentials' weighted sum of the value column, divided once by their sum. -/
def kAttn (q : Fin 64 → EReal) (k : Fin 2048 → Fin 64 → EReal) (v mk : Fin 2048 → EReal) : EReal :=
  Ideal.div
    (∑ t : Fin 2048, Ideal.exp (kScore q k mk t - Finset.univ.fold max ninf (kScore q k mk)) * v t)
    (∑ t : Fin 2048, Ideal.exp (kScore q k mk t - Finset.univ.fold max ninf (kScore q k mk)))

/-- The reference's logit: the product divided by sqrt 64 afterwards. -/
def rScore (q : Fin 64 → EReal) (k : Fin 2048 → Fin 64 → EReal) (mk : Fin 2048 → EReal) (t : Fin 2048) : EReal :=
  Ideal.div (∑ d : Fin 64, q d * k t d) (Ideal.sqrt c64) + mk t

/-- The reference's row maximum: the fold from minus infinity, joined once more with minus infinity. -/
def rMax (q : Fin 64 → EReal) (k : Fin 2048 → Fin 64 → EReal) (mk : Fin 2048 → EReal) : EReal :=
  max ninf (Finset.univ.fold max ninf (rScore q k mk))

/-- The reference's entry: every weight normalised, then the values summed. -/
def rAttn (q : Fin 64 → EReal) (k : Fin 2048 → Fin 64 → EReal) (v mk : Fin 2048 → EReal) : EReal :=
  ∑ t : Fin 2048,
    Ideal.div (Ideal.exp (rScore q k mk t - rMax q k mk))
      (z0 + ∑ u : Fin 2048, Ideal.exp (rScore q k mk u - rMax q k mk)) * v t

/-! ### The four words and the square root as reals -/

theorem c8_eq : c8 = (((1 : ℝ) / 8 : ℝ) : EReal) := by
  simp [Ideal.ofBits, Ideal.ieee, -EReal.coe_mul]; norm_num

theorem c64_eq : c64 = ((64 : ℝ) : EReal) := by
  simp [Ideal.ofBits, Ideal.ieee, -EReal.coe_mul]; norm_num

theorem ninf_eq : ninf = ⊥ := by
  simp [Ideal.ofBits, Ideal.ieee]

theorem z0_eq : z0 = 0 := Ideal.ofBits_zero_f32

theorem sqrt_c64 : Ideal.sqrt ((64 : ℝ) : EReal) = ((8 : ℝ) : EReal) := by
  rw [Ideal.sqrt_coe, if_neg (by norm_num)]
  congr 1
  rw [show (64 : ℝ) = 8 * 8 by norm_num]
  exact Real.sqrt_mul_self (by norm_num)

/-! ### Finite sums and maxima of reals inside the extended reals -/

/-- The coercion commutes with a finite sum. -/
theorem ereal_coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The running maximum from minus infinity over a nonempty family of reals is a real. -/
theorem fold_max_coe {ι : Type*} (s : Finset ι) (hs : s.Nonempty) (f : ι → ℝ) :
    ∃ M : ℝ, s.fold max (⊥ : EReal) (fun i => (f i : EReal)) = (M : EReal) := by
  classical
  revert hs
  refine Finset.induction_on s ?_ ?_
  · intro hs
    exact absurd hs (by simp)
  · intro a s ha ih _
    rw [Finset.fold_insert ha]
    rcases s.eq_empty_or_nonempty with rfl | hne
    · exact ⟨f a, by simp⟩
    · obtain ⟨M, hM⟩ := ih hne
      exact ⟨max (f a) M, by rw [hM]; exact (EReal.coe_strictMono.monotone.map_max).symm⟩

/-! ### Both logits are one real -/

theorem kScore_coe (q : Fin 64 → ℝ) (k : Fin 2048 → Fin 64 → ℝ) (mk : Fin 2048 → ℝ) (t : Fin 2048) :
    kScore (fun d => (q d : EReal)) (fun t d => (k t d : EReal)) (fun t => (mk t : EReal)) t
      = (((∑ d, q d * k t d) * ((1 : ℝ) / 8) + mk t : ℝ) : EReal) := by
  simp only [kScore]
  rw [c8_eq]
  simp only [← EReal.coe_mul]
  rw [← ereal_coe_sum, ← EReal.coe_add]
  congr 1
  rw [Finset.sum_mul]
  congr 1
  exact Finset.sum_congr rfl (fun d _ => by ring)

theorem rScore_coe (q : Fin 64 → ℝ) (k : Fin 2048 → Fin 64 → ℝ) (mk : Fin 2048 → ℝ) (t : Fin 2048) :
    rScore (fun d => (q d : EReal)) (fun t d => (k t d : EReal)) (fun t => (mk t : EReal)) t
      = (((∑ d, q d * k t d) * ((1 : ℝ) / 8) + mk t : ℝ) : EReal) := by
  simp only [rScore]
  rw [c64_eq, sqrt_c64, Ideal.div_coe (by norm_num : (8 : ℝ) ≠ 0)]
  simp only [← EReal.coe_mul]
  rw [← ereal_coe_sum, ← EReal.coe_mul, ← EReal.coe_add]

/-! ### Dividing once after the sum, or every weight before it -/

theorem attn_core {ι : Type*} [Fintype ι] (hne : (Finset.univ : Finset ι).Nonempty) (s v : ι → ℝ) (M : ℝ) :
    Ideal.div (∑ t, Ideal.exp ((s t : EReal) - (M : EReal)) * (v t : EReal))
        (∑ t, Ideal.exp ((s t : EReal) - (M : EReal)))
      = ∑ t, Ideal.div (Ideal.exp ((s t : EReal) - (M : EReal)))
          ((0 : EReal) + ∑ u, Ideal.exp ((s u : EReal) - (M : EReal))) * (v t : EReal) := by
  have hexp : ∀ t, Ideal.exp ((s t : EReal) - (M : EReal)) = ((Real.exp (s t - M) : ℝ) : EReal) := by
    intro t
    rw [← EReal.coe_sub]
    rfl
  simp only [hexp, zero_add]
  have hL : (∑ t, ((Real.exp (s t - M) : ℝ) : EReal)) = ((∑ t, Real.exp (s t - M) : ℝ) : EReal) :=
    (ereal_coe_sum _ _).symm
  have hpos : (∑ t, Real.exp (s t - M)) ≠ 0 :=
    ne_of_gt (Finset.sum_pos (fun t _ => Real.exp_pos _) hne)
  rw [hL]
  simp only [Ideal.div_coe hpos]
  simp only [← EReal.coe_mul]
  rw [← ereal_coe_sum, ← ereal_coe_sum, ← EReal.coe_mul]
  congr 1
  rw [Finset.sum_mul]
  exact Finset.sum_congr rfl (fun t _ => by ring)

/-- Over real entries the two orders give one number. -/
theorem attn_eq (q : Fin 64 → ℝ) (k : Fin 2048 → Fin 64 → ℝ) (v mk : Fin 2048 → ℝ) :
    kAttn (fun d => (q d : EReal)) (fun t d => (k t d : EReal)) (fun t => (v t : EReal)) (fun t => (mk t : EReal))
      = rAttn (fun d => (q d : EReal)) (fun t d => (k t d : EReal)) (fun t => (v t : EReal)) (fun t => (mk t : EReal)) := by
  obtain ⟨s, hk, hr⟩ : ∃ s : Fin 2048 → ℝ,
      kScore (fun d => (q d : EReal)) (fun t d => (k t d : EReal)) (fun t => (mk t : EReal)) = (fun t => (s t : EReal)) ∧
      rScore (fun d => (q d : EReal)) (fun t d => (k t d : EReal)) (fun t => (mk t : EReal)) = (fun t => (s t : EReal)) :=
    ⟨_, funext (kScore_coe q k mk), funext (rScore_coe q k mk)⟩
  have hne : (Finset.univ : Finset (Fin 2048)).Nonempty := ⟨0, Finset.mem_univ _⟩
  obtain ⟨M, hM⟩ := fold_max_coe Finset.univ hne s
  unfold kAttn rAttn rMax
  simp only [hk, hr]
  rw [ninf_eq, hM, z0_eq, max_bot_left]
  exact attn_core hne s v M

/-! ## The projection and the heads' columns -/

/-- Entry (b, s, e) of the fused projection. -/
def proj (x : Sx.Idx → EReal) (Wq : SWq.Idx → EReal) (bq : Sbq.Idx → EReal) (b : Fin 2) (s : Fin 2048) (e : Fin 3072) : EReal :=
  (∑ d : Fin 1024, x (ix3 b s d) * Wq (ix2 e d)) + bq (ix1 e)

/-- The projection column holding coordinate `d` of the QUERY of the head that owns output column `col`. -/
def eQ (col : Fin 1024) (d : Fin 64) : Fin 3072 := ⟨192 * (col.val / 64) + d.val, by have := col.isLt; have := d.isLt; omega⟩
/-- … of its KEY. -/
def eK (col : Fin 1024) (d : Fin 64) : Fin 3072 := ⟨192 * (col.val / 64) + 64 + d.val, by have := col.isLt; have := d.isLt; omega⟩
/-- The projection column holding the VALUE entry that output column `col` is made from. -/
def eV (col : Fin 1024) : Fin 3072 := ⟨192 * (col.val / 64) + 128 + col.val % 64, by have := col.isLt; omega⟩

/-- Row `e` of the regrouped weight is row `perm e` of the weight as given: the three slabs (queries, keys, values),
    each head-major, back to the per-head interleaved order. -/
def perm (e : Fin 3072) : Fin 3072 :=
  ⟨192 * ((e.val % 1024) / 64) + 64 * (e.val / 1024) + e.val % 64, by have := e.isLt; omega⟩

/-- Column `d` of the head owning column `col`, inside a [.., 1024] slab. -/
def hcol (col : Fin 1024) (d : Fin 64) : Fin 1024 := ⟨64 * (col.val / 64) + d.val, by have := col.isLt; have := d.isLt; omega⟩

/-- The same inside one 128-column block of two heads: column `d` of the head owning block column `cc`. -/
def hcol128 (cc : Fin 128) (d : Fin 64) : Fin 128 := ⟨64 * (cc.val / 64) + d.val, by have := cc.isLt; have := d.isLt; omega⟩

theorem perm_q (col : Fin 1024) (d : Fin 64) : perm ⟨(hcol col d).val, by have := (hcol col d).isLt; omega⟩ = eQ col d := by
  apply Fin.ext
  have h1 := col.isLt
  have h2 := d.isLt
  simp only [perm, eQ, hcol]
  omega
theorem perm_k (col : Fin 1024) (d : Fin 64) : perm ⟨1024 + (hcol col d).val, by have := (hcol col d).isLt; omega⟩ = eK col d := by
  apply Fin.ext
  have h1 := col.isLt
  have h2 := d.isLt
  simp only [perm, eK, hcol]
  omega
theorem perm_v (col : Fin 1024) : perm ⟨2048 + col.val, by have := col.isLt; omega⟩ = eV col := by
  apply Fin.ext
  have h1 := col.isLt
  simp only [perm, eV]
  omega

/-- With real arrays an entry of the projection is a real. -/
theorem proj_coe (xr : Sx.Idx → ℝ) (Wr : SWq.Idx → ℝ) (br : Sbq.Idx → ℝ) (b : Fin 2) (s : Fin 2048) (e : Fin 3072) :
    proj (fun i => (xr i : EReal)) (fun i => (Wr i : EReal)) (fun i => (br i : EReal)) b s e
      = (((∑ d : Fin 1024, xr (ix3 b s d) * Wr (ix2 e d)) + br (ix1 e) : ℝ) : EReal) := by
  simp only [proj]
  simp only [← EReal.coe_mul]
  rw [← ereal_coe_sum, ← EReal.coe_add]

/-! ## The three regions' arrays, each from the arrays it is entered with -/

/-- Slab `o` (0 queries, 1 keys, 2 values) of the first region: rows of `A` against columns 1024·o … of `Wt`, plus the bias. -/
def slab (o : Fin 3) (A : Srows.Idx → EReal) (Wt : SWt.Idx → EReal) (Bg : Sbq.Idx → EReal) : Srows.Idx → EReal := fun i =>
  (∑ d : Fin 1024, A (ix2 (i 0) d) * Wt (ix2 d ⟨1024 * o.val + (i 1).val, by have := o.isLt; have h1 : (i 1).val < 1024 := (i 1).isLt; omega⟩))
    + Bg (ix1 ⟨1024 * o.val + (i 1).val, by have := o.isLt; have h1 : (i 1).val < 1024 := (i 1).isLt; omega⟩)

/-- The second region: entry (b, s, col) from the query, key and value slabs and the mask, in the kernel's order. -/
def heads (Q K Vv : Sx.Idx → EReal) (mask : Smask.Idx → EReal) : Sx.Idx → EReal := fun i =>
  kAttn (fun d => Q (ix3 (i 0) (i 1) (hcol (i 2) d))) (fun t d => K (ix3 (i 0) t (hcol (i 2) d)))
    (fun t => Vv (ix3 (i 0) t (i 2))) (fun t => mask (ix2 (i 1) t))

/-- The third region: rows of `A` against the transposed output weight, plus the bias. -/
def outRows (A : Srows.Idx → EReal) (Wt : SWo.Idx → EReal) (B : Sbo.Idx → EReal) : Srows.Idx → EReal := fun i =>
  (∑ d : Fin 1024, A (ix2 (i 0) d) * Wt (ix2 d (i 1))) + B (ix1 (i 1))

/-! ## The whole result, in either order -/

def attK (x : Sx.Idx → EReal) (mask : Smask.Idx → EReal) (Wq : SWq.Idx → EReal) (bq : Sbq.Idx → EReal)
    (b : Fin 2) (s : Fin 2048) (col : Fin 1024) : EReal :=
  kAttn (fun d => proj x Wq bq b s (eQ col d)) (fun t d => proj x Wq bq b t (eK col d))
    (fun t => proj x Wq bq b t (eV col)) (fun t => mask (ix2 s t))

def attR (x : Sx.Idx → EReal) (mask : Smask.Idx → EReal) (Wq : SWq.Idx → EReal) (bq : Sbq.Idx → EReal)
    (b : Fin 2) (s : Fin 2048) (col : Fin 1024) : EReal :=
  rAttn (fun d => proj x Wq bq b s (eQ col d)) (fun t d => proj x Wq bq b t (eK col d))
    (fun t => proj x Wq bq b t (eV col)) (fun t => mask (ix2 s t))

def outK (x : Sx.Idx → EReal) (mask : Smask.Idx → EReal) (Wq : SWq.Idx → EReal) (bq : Sbq.Idx → EReal)
    (Wo : SWo.Idx → EReal) (bo : Sbo.Idx → EReal) : Sx.Idx → EReal := fun i =>
  (∑ d : Fin 1024, attK x mask Wq bq (i 0) (i 1) d * Wo (ix2 (i 2) d)) + bo (ix1 (i 2))

def outR (x : Sx.Idx → EReal) (mask : Smask.Idx → EReal) (Wq : SWq.Idx → EReal) (bq : Sbq.Idx → EReal)
    (Wo : SWo.Idx → EReal) (bo : Sbo.Idx → EReal) : Sx.Idx → EReal := fun i =>
  (∑ d : Fin 1024, attR x mask Wq bq (i 0) (i 1) d * Wo (ix2 (i 2) d)) + bo (ix1 (i 2))

/-- An array all of whose entries are real numbers. -/
def IsReal {s : Shape} (a : s.Idx → EReal) : Prop := ∀ i, ∃ r : ℝ, a i = (r : EReal)

/-- With real inputs the two orders agree entry by entry (only `x`, the mask, the fused weight and its bias feed the heads). -/
theorem outK_eq_outR (x : Sx.Idx → EReal) (mask : Smask.Idx → EReal) (Wq : SWq.Idx → EReal) (bq : Sbq.Idx → EReal)
    (Wo : SWo.Idx → EReal) (bo : Sbo.Idx → EReal) (hx : IsReal x) (hm : IsReal mask) (hW : IsReal Wq) (hb : IsReal bq) :
    outK x mask Wq bq Wo bo = outR x mask Wq bq Wo bo := by
  choose xr hxr using hx
  choose mr hmr using hm
  choose Wr hWr using hW
  choose br hbr using hb
  obtain rfl : x = fun i => (xr i : EReal) := funext hxr
  obtain rfl : mask = fun i => (mr i : EReal) := funext hmr
  obtain rfl : Wq = fun i => (Wr i : EReal) := funext hWr
  obtain rfl : bq = fun i => (br i : EReal) := funext hbr
  have h : attK (fun i => (xr i : EReal)) (fun i => (mr i : EReal)) (fun i => (Wr i : EReal)) (fun i => (br i : EReal))
      = attR (fun i => (xr i : EReal)) (fun i => (mr i : EReal)) (fun i => (Wr i : EReal)) (fun i => (br i : EReal)) := by
    funext b s col
    unfold attK attR
    simp only [proj_coe]
    exact attn_eq _ _ _ _
  funext i
  unfold outK outR
  rw [h]

end Cert.MHA

end
-- ==== Proof.Host0.lean ====
/-
  What the first region is entered with, read at an index from the launch memory: the input flattened to rows; the
  fused weight with its rows regrouped by the literal index table (slab-major, head-major inside a slab:
  `Cert.MHA.perm`) and then transposed; the bias regrouped the same way; the output weight transposed. The changes of
  float format on the way are the identity over the extended reals.
-/
import proofs.«413744_j12515534701302_3_alg».proof.Proof.Gen.KernelIdeal.Frame
import proofs.«413744_j12515534701302_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

set_option maxRecDepth 16384

noncomputable section

namespace Cert.KernelIdeal.Host0

open Cert.KernelIdeal Cert.KernelIdeal.Gen Cert.MHA
open Idealize.ShloMosaic Idealize.ShloMosaic.TcCoe Idealize.ShloMosaic.ValueIdx Idealize.SL.Sem
open Idealize.ShloMosaic.StableHlo.Predicate (ixP)

variable (m : (ℓ : Loc nD τ sig) → Buf (Elt Ideal) ℓ) (ρ : Dev nD → PrngReg)

/-! ## Reading a gather whose start indices are a column of table entries -/

/-- The one entry of a one-entry list. -/
theorem getElem_of_eq_singleton {β : Type} {l : List β} {b : β} (h : l = [b]) (k : Nat) (hk : k < l.length) : l[k] = b := by
  subst h
  have hk0 : k = 0 := by simpa using hk
  subst hk0; rfl

/-- A gather of whole rows: the operand's first axis is collapsed and start-indexed, its second axis is the result's one
    offset axis, and the start indices are an [n × 1] column. Entry (p, q) of the result is entry (r, q) of the operand,
    r the start index of row p read signed and clamped into the operand's rows. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ixP p)).toInt.toNat (N - 1), by omega⟩ q) := by
  unfold Host.gather
  congr 1
  funext a
  apply Fin.ext
  have hb : ∀ a, a ∉ d.operandBatchingDims := by intro a; rw [hob]; exact List.not_mem_nil
  have hbd : d.batchDims = [0] := by
    show Shape.kept _ d.offsetDims = _
    rw [hoff]; rfl
  match a with
  | ⟨0, h0⟩ =>
    -- the collapsed axis: the clamped start index, no batch and no offset coordinate
    have hk : (⟨0, h0⟩ : Fin 2) ∉ d.sKept := by rw [GatherDims.mem_sKept, hcoll]; simp
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    rw [hsl]
    have hsi : d.siIdx (ix2 p q) ⟨List.idxOf ⟨0, h0⟩ d.startIndexMap, List.idxOf_lt_length_iff.2 hm⟩ = ixP p := by
      funext b
      match b with
      | ⟨0, hb0⟩ =>
        unfold GatherDims.siIdx
        rw [dif_neg (by rw [hivd]; exact Nat.zero_ne_one)]
        unfold GatherDims.siCoord
        apply Fin.ext
        simp only [Fin.val_cast]
        rw [getElem_of_eq_singleton hbd] <;> rfl
      | ⟨1, hb1⟩ =>
        unfold GatherDims.siIdx
        rw [dif_pos (by rw [hivd])]
        apply Fin.ext
        show List.idxOf (⟨0, h0⟩ : Fin 2) d.startIndexMap = 0
        rw [hsim]
        first | rfl | simp
    rw [hsi]; rfl
  | ⟨1, h1⟩ =>
    -- the kept axis: no start index, the result's offset coordinate
    have hne : (⟨1, h1⟩ : Fin 2) ∉ [(0 : Fin 2)] := fun h =>
      absurd (congrArg Fin.val (List.mem_singleton.mp h)) Nat.one_ne_zero
    have hk : (⟨1, h1⟩ : Fin 2) ∈ d.sKept := by
      rw [GatherDims.mem_sKept, hcoll, hob]
      exact ⟨hne, List.not_mem_nil⟩
    have hm : (⟨1, h1⟩ : Fin 2) ∉ d.startIndexMap := by
      rw [hsim]
      exact hne
    simp only [GatherDims.operandIdx, GatherDims.batchCoord_eq_zero _ _ _ (hb _), Nat.add_zero, GatherDims.start, dif_neg hm,
      Nat.zero_add, GatherDims.offCoord, dif_pos hk]
    rw [getElem_of_eq_singleton hoff] <;> rfl

/-- The start-index column made from a table behind a select whose mask is false everywhere: entry p of the column is
    entry p of the table (the other operand of the select is never taken). -/
theorem col_apply {n : Nat} (hn : n ≠ 1) (h : (⟨1, ![n]⟩ : Shape).BroadcastsInDim ⟨2, ![n, 1]⟩ ![0])
    (X idx : IVec ⟨1, ![n]⟩ 32) (p : Fin n) :
    broadcastInDim ⟨2, ![n, 1]⟩ ![0] h (select (constantI ⟨1, ![n]⟩ 1 0#1) X idx) (ixP p) = idx (ix1 p) := by
  rw [broadcastInDim_apply ![0] h _ (ixP p) (ix1 p) (fun a => by
    obtain rfl : a = 0 := Subsingleton.elim _ _
    show p.val = if n = 1 then 0 else p.val
    rw [if_neg hn])]
  rw [select_apply]
  exact select_zero _ _

/-- A start index below the operand's length, read signed and clamped, is itself. -/
theorem clamp_eq {N : Nat} (b : BitVec 32) (v : Nat) (hb : b.toNat = v) (hv : v < N) (hN : N ≤ 2 ^ 31) :
    min b.toInt.toNat (N - 1) = v := by
  have h2 : 2 * b.toNat < 2 ^ 32 := by omega
  rw [BitVec.toInt_eq_toNat_cond, if_pos h2]
  omega

/-- The take of a vector at a column of start indices that spell `perm`: entry e is the vector's entry `perm e`. -/
theorem vec_read {α : Type} (d : GatherDims S3072 S3072x1 S3072)
    (hcoll : d.collapsedSliceDims = [0]) (hob : d.operandBatchingDims = [])
    (hsim : d.startIndexMap = [0]) (hivd : d.indexVectorDim = 1)
    (h : S3072.BroadcastsInDim S3072x1 ![0])
    (x : S3072.Idx → α) (X idx : IVec S3072 32) (hidx : ∀ e : Fin 3072, (idx (ix1 e)).toNat = (perm e).val)
    (i : S3072.Idx) :
    Host.gather d x (broadcastInDim S3072x1 ![0] h (select (constantI S3072 1 0#1) X idx)) i = x (ix1 (perm (i 0))) := by
  obtain ⟨p, rfl⟩ : ∃ p : Fin 3072, i = Shape.Idx.ofFin p := ⟨i 0, Shape.Idx.eq_ofFin i⟩
  have hcol := col_apply (by decide) h X idx p
  rw [StableHlo.Predicate.gather_take d hcoll hob hsim hivd x _ p (by decide)]
  refine congrArg x (funext fun a => ?_)
  obtain rfl : a = 0 := Subsingleton.elim _ _
  apply Fin.ext
  show min (_ : BitVec 32).toInt.toNat (3072 - 1) = (perm p).val
  exact clamp_eq _ _ (by rw [hcol]; exact hidx p) (perm p).isLt (by decide)

/-- The row gather of a matrix at such a column: entry (e, q) is the matrix's entry (`perm e`, q). -/
theorem rows_read {α : Type} (d : GatherDims S3072x1024 S3072x1 S3072x1024)
    (hoff : d.offsetDims = [1]) (hcoll : d.collapsedSliceDims = [0]) (hob : d.operandBatchingDims = [])
    (hsim : d.startIndexMap = [0]) (hivd : d.indexVectorDim = 1)
    (h : S3072.BroadcastsInDim S3072x1 ![0])
    (x : S3072x1024.Idx → α) (X idx : IVec S3072 32) (hidx : ∀ e : Fin 3072, (idx (ix1 e)).toNat = (perm e).val)
    (p : Fin 3072) (q : Fin 1024) :
    Host.gather d x (broadcastInDim S3072x1 ![0] h (select (constantI S3072 1 0#1) X idx)) (ix2 p q) = x (ix2 (perm p) q) := by
  have hcol := col_apply (by decide) h X idx p
  rw [gather_rows d hoff hcoll hob hsim hivd x _ p q (by decide)]
  refine congrArg x (funext fun a => ?_)
  match a with
  | ⟨0, _⟩ => exact Fin.ext (clamp_eq _ _ (by rw [hcol]; exact hidx p) (perm p).isLt (by decide))
  | ⟨1, _⟩ => rfl

/-- The literal index table is the regrouping `perm`, entry by entry. -/
theorem table_eq (e : Fin 3072) : (lit0 e).toNat = (perm e).val := by
  have h : ∀ e : Fin 3072, (lit0 e).toNat = 192 * ((e.val % 1024) / 64) + 64 * (e.val / 1024) + e.val % 64 := by
    decide +kernel
  exact h e

/-- The table as the constant's array: its entry at the rank-1 index e spells `perm e`. -/
theorem table_read (e : Fin 3072) : ((fun i : S3072.Idx => lit0 (S3072.rowMajor i)) (ix1 e)).toNat = (perm e).val := by
  have hv : (S3072.rowMajor (ix1 e)).val = e.val := Shape.rowMajor_val_one (ix1 e)
  have hval : ∀ a b : Fin 3072, a.val = b.val → lit0 a = lit0 b := fun a b h => by rw [Fin.ext h]
  have he : lit0 (S3072.rowMajor (ix1 e)) = lit0 e := hval _ _ hv
  show (lit0 (S3072.rowMajor (ix1 e))).toNat = _
  rw [he]
  exact table_eq e

/-- Row r = 2048 b + s of the flattened input is row (b, s) of the input. -/
theorem entry_rows (c : Dev nD) :
    V1 m ρ c main_v14 = fun (i : Srows.Idx) => m ((c : Thread nD τ).loc main_arg0)
      (ix3 (⟨(i 0).val / 2048, by have h : (i 0).val < 4096 := (i 0).isLt; omega⟩ : Fin 2)
        (⟨(i 0).val % 2048, by omega⟩ : Fin 2048) (i 1)) := by
  have e : (V1 m ρ c main_v14 : Srows.Idx → EReal)
      = shapeCast S4096x1024 (m ((c : Thread nD τ).loc main_arg0) : S2x2048x1024.Idx → EReal) shapeCasts_S2x2048x1024_S4096x1024 := by
    show StableHlo.after hostOps0 _ (Proc.devRef .tc main_v14) = _
    after_results
    rfl
  refine e.trans ?_
  funext i
  have h0 : (i 0).val < 4096 := (i 0).isLt
  have h1 : (i 1).val < 1024 := (i 1).isLt
  have hk : (S2x2048x1024.rowMajor (ix3 (⟨(i 0).val / 2048, by omega⟩ : Fin 2) (⟨(i 0).val % 2048, by omega⟩ : Fin 2048) (i 1))).val
      = (S4096x1024.rowMajor i).val := by
    rw [Shape.rowMajor_val_two, Shape.rowMajor_val_three]
    show (((i 0).val / 2048) * 2048 + (i 0).val % 2048) * 1024 + (i 1).val = (i 0).val * 1024 + (i 1).val
    omega
  exact shapeCast_apply (s := S2x2048x1024) (t := S4096x1024) _ _ i _ hk

/-- Entry (d, e) of the regrouped, transposed weight is entry (perm e, d) of the fused weight. -/
theorem entry_Wt (c : Dev nD) :
    V1 m ρ c main_v11 = fun (i : SWt.Idx) => m ((c : Thread nD τ).loc main_arg2) (ix2 (perm (i 1)) (i 0)) := by
  have e : (V1 m ρ c main_v11 : SWt.Idx → EReal)
      = transpose S1024x3072 [1, 0]
          (Host.gather gather_S3072x1024_S3072x1_S3072x1024_1_0_n_n_0_1_11024
            (m ((c : Thread nD τ).loc main_arg2) : S3072x1024.Idx → EReal)
            (broadcastInDim S3072x1 ![0] bcast_S3072_S3072x1_0
              (select (constantI S3072 1 0#1)
                (addi (fun i => lit0 (S3072.rowMajor i)) (broadcastInDim S3072 ![] bcast_S_S3072 (constantI S_ 32 3072#32)))
                (fun i => lit0 (S3072.rowMajor i)))))
          transposes_S3072x1024_S1024x3072_1_0 := by
    show StableHlo.after hostOps0 _ (Proc.devRef .tc main_v11) = _
    after_results
    rfl
  refine e.trans ?_
  funext i
  obtain ⟨a, b, rfl⟩ : ∃ (a : Fin 1024) (b : Fin 3072), i = ix2 a b := ⟨i 0, i 1, eq_ix2 i⟩
  refine (transpose_ix2_apply _ transposes_S3072x1024_S1024x3072_1_0 a b).trans ?_
  exact rows_read _ rfl rfl rfl rfl rfl _ _ _ _ table_read b a

/-- Entry e of the regrouped bias is entry perm e of the fused bias. -/
theorem entry_bias (c : Dev nD) :
    V1 m ρ c main_v9 = fun (i : Sbq.Idx) => m ((c : Thread nD τ).loc main_arg3) (ix1 (perm (i 0))) := by
  have e : (V1 m ρ c main_v9 : Sbq.Idx → EReal)
      = Host.gather gather_S3072_S3072x1_S3072_n_0_n_n_0_1_1
          (m ((c : Thread nD τ).loc main_arg3) : S3072.Idx → EReal)
          (broadcastInDim S3072x1 ![0] bcast_S3072_S3072x1_0
            (select (constantI S3072 1 0#1)
              (addi (fun i => lit0 (S3072.rowMajor i)) (broadcastInDim S3072 ![] bcast_S_S3072 (constantI S_ 32 3072#32)))
              (fun i => lit0 (S3072.rowMajor i)))) := by
    show StableHlo.after hostOps0 _ (Proc.devRef .tc main_v9) = _
    after_results
    rfl
  refine e.trans ?_
  funext i
  exact vec_read _ rfl rfl rfl rfl _ _ _ _ table_read i

/-- Entry (d, e) of the transposed output weight is entry (e, d) of the output weight. -/
theorem entry_WoT (c : Dev nD) :
    V1 m ρ c main_v13 = fun (i : SWo.Idx) => m ((c : Thread nD τ).loc main_arg4) (ix2 (i 1) (i 0)) := by
  have e : (V1 m ρ c main_v13 : SWo.Idx → EReal)
      = transpose S1024x1024 [1, 0] (m ((c : Thread nD τ).loc main_arg4) : S1024x1024.Idx → EReal)
          transposes_S1024x1024_S1024x1024_1_0 := by
    show StableHlo.after hostOps0 _ (Proc.devRef .tc main_v13) = _
    after_results
    rfl
  refine e.trans ?_
  funext i
  obtain ⟨p, q, rfl⟩ : ∃ (p : Fin 1024) (q : Fin 1024), i = ix2 p q := ⟨i 0, i 1, eq_ix2 i⟩
  exact transpose_ix2_apply _ _ p q

end Cert.KernelIdeal.Host0

end
-- ==== Proof.Region0.lean ====
/-
  The first region (the fused projection), read as values: grid point t takes rows 512t … 512t+511 of the row matrix,
  multiplies them into the whole regrouped weight, adds the bias along the rows and writes columns 0–1023, 1024–2047
  and 2048–3071 of the product to the query, key and value slabs. The eight row blocks tile each slab, so each slab
  ends as ONE function of the arrays the region was entered with (`Cert.MHA.slab`).
-/
import proofs.«413744_j12515534701302_3_alg».proof.Proof.Gen.KernelIdeal.Frame
import proofs.«413744_j12515534701302_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.MHA
open Idealize.ShloMosaic Idealize.ShloMosaic.TcCoe Idealize.ShloMosaic.ValueIdx Idealize.SL.Sem
open Idealize.ShloMosaic.Pipeline (Dat Cfg Window)

/-! ## The body's value at an index -/

abbrev DQ := dot_S512x1024_S1024x3072_S512x3072_1_0_0_1_n_n

theorem lhs_DQ_0 (i : S512x3072.Idx) (q : DQ.contr.Idx) : (DQ.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_DQ_1 (i : S512x3072.Idx) (q : DQ.contr.Idx) : (DQ.lhsIdx i q 1).val = (q ⟨0, by decide⟩).val :=
  dot_S512x1024_S1024x3072_S512x3072_1_0_0_1_n_n.lhsIdx_val_of_single rfl i q
theorem rhs_DQ_0 (i : S512x3072.Idx) (q : DQ.contr.Idx) : (DQ.rhsIdx i q 0).val = (q ⟨0, by decide⟩).val :=
  dot_S512x1024_S1024x3072_S512x3072_1_0_0_1_n_n.rhsIdx_val_of_single rfl i q
theorem rhs_DQ_1 (i : S512x3072.Idx) (q : DQ.contr.Idx) : (DQ.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product of the row block with the weight, read at an entry: the 1024-term sum. -/
theorem mm_apply (a : FVec Ideal S512x1024 .bf16) (b : FVec Ideal S1024x3072 .bf16) (p : Fin 512) (q : Fin 3072) :
    matmul (F := Ideal) dot_S512x1024_S1024x3072_S512x3072_1_0_0_1_n_n none a b (constant S512x3072 .f32 0x00000000#32) (ix2 p q)
      = ∑ k : Fin 1024, a (ix2 p k) * b (ix2 k q) := by
  refine (Ideal.matmul_constant_zero_apply dot_S512x1024_S1024x3072_S512x3072_1_0_0_1_n_n none a b (ix2 p q)).trans ?_
  rw [← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 p q) ((ValueIdx.contrEquiv1 dot_S512x1024_S1024x3072_S512x3072_1_0_0_1_n_n 1024 rfl rfl).symm k) = ix2 p k := funext fun ax => Fin.ext (by
    match ax with
    | ⟨0, _⟩ => exact lhs_DQ_0 _ _
    | ⟨1, _⟩ => exact (lhs_DQ_1 _ _).trans hk)
  have er : dot_S512x1024_S1024x3072_S512x3072_1_0_0_1_n_n.rhsIdx (ix2 p q) ((ValueIdx.contrEquiv1 dot_S512x1024_S1024x3072_S512x3072_1_0_0_1_n_n 1024 rfl rfl).symm k) = ix2 k q := funext fun ax => Fin.ext (by
    match ax with
    | ⟨0, _⟩ => exact (rhs_DQ_0 _ _).trans hk
    | ⟨1, _⟩ => exact rhs_DQ_1 _ _)
  rw [el, er]

/-- The body's full-width value at an entry: the sum against the weight's column, plus the bias there. -/
theorem pay1_apply (x0 : Vec Ideal S512x1024 .f32) (x1 : Vec Ideal S1024x3072 .bf16) (x2 : Vec Ideal S3072 .f32)
    (p : Fin 512) (q : Fin 3072) :
    k0_pay1 (F := Ideal) x0 x1 x2 (ix2 p q) = (∑ k : Fin 1024, x0 (ix2 p k) * x1 (ix2 k q)) + x2 (ix1 q) := by
  unfold k0_pay1
  rw [shapeCast_self, shapeCast_self, shapeCast_self]
  refine (addf_apply _ _ _).trans ?_
  rw [mm_apply, broadcastTo_1b_ab_apply, shapeCast_a_1a_apply]
  rfl

/-- A 1024-column band, from column `o`, of a full-width value, rounded: at an entry it is the value `o` columns on. -/
theorem band_apply (o : Nat) (ho : o + 1024 ≤ 3072) (h : S512x3072.Slices ![0, o] S512x1024)
    (Y : FVec Ideal S512x3072 .f32) (p : Fin 512) (j : Fin 1024) :
    (truncf .bf16 (extractStridedSlice S512x1024 ![0, o] Y h) bitsLt_bf16_f32 : FVec Ideal S512x1024 .bf16) (ix2 p j)
      = Y (ix2 p ⟨o + j.val, by have := j.isLt; omega⟩) :=
  slice2_axis1_apply o Y h p j ⟨o + j.val, by have := j.isLt; omega⟩ rfl

theorem pay2_apply (x0 : Vec Ideal S512x1024 .f32) (x1 : Vec Ideal S1024x3072 .bf16) (x2 : Vec Ideal S3072 .f32)
    (p : Fin 512) (j : Fin 1024) :
    k0_pay2 (F := Ideal) x0 x1 x2 (ix2 p j)
      = (∑ k : Fin 1024, x0 (ix2 p k) * x1 (ix2 k ⟨0 + j.val, by have := j.isLt; omega⟩)) + x2 (ix1 ⟨0 + j.val, by have := j.isLt; omega⟩) := by
  unfold k0_pay2
  refine (band_apply 0 (by omega) slices_S512x3072_o0_0_S512x1024 _ p j).trans ?_
  exact pay1_apply x0 x1 x2 p _

theorem pay3_apply (x0 : Vec Ideal S512x1024 .f32) (x1 : Vec Ideal S1024x3072 .bf16) (x2 : Vec Ideal S3072 .f32)
    (p : Fin 512) (j : Fin 1024) :
    k0_pay3 (F := Ideal) x0 x1 x2 (ix2 p j)
      = (∑ k : Fin 1024, x0 (ix2 p k) * x1 (ix2 k ⟨1024 + j.val, by have := j.isLt; omega⟩)) + x2 (ix1 ⟨1024 + j.val, by have := j.isLt; omega⟩) := by
  unfold k0_pay3
  refine (band_apply 1024 (by omega) slices_S512x3072_o0_1024_S512x1024 _ p j).trans ?_
  exact pay1_apply x0 x1 x2 p _

theorem pay4_apply (x0 : Vec Ideal S512x1024 .f32) (x1 : Vec Ideal S1024x3072 .bf16) (x2 : Vec Ideal S3072 .f32)
    (p : Fin 512) (j : Fin 1024) :
    k0_pay4 (F := Ideal) x0 x1 x2 (ix2 p j)
      = (∑ k : Fin 1024, x0 (ix2 p k) * x1 (ix2 k ⟨2048 + j.val, by have := j.isLt; omega⟩)) + x2 (ix1 ⟨2048 + j.val, by have := j.isLt; omega⟩) := by
  unfold k0_pay4
  refine (band_apply 2048 (by omega) slices_S512x3072_o0_2048_S512x1024 _ p j).trans ?_
  exact pay1_apply x0 x1 x2 p _

/-! ## The windows' blocks in the arrays -/

-- the TensorCore's buffer contents when the region is entered
variable (V : (c : Dev nD) → (b : Ref sig .tc) → Buf (Elt Ideal) ((c : Thread nD τ).loc b))

/-- The three arrays the region reads, each at its literal type. -/
abbrev rowsA (c : Dev nD) : Srows.Idx → EReal := V c main_v14
abbrev wtA (c : Dev nD) : SWt.Idx → EReal := V c main_v11
abbrev biasA (c : Dev nD) : Sbq.Idx → EReal := V c main_v9

/-- The three blocks of point `t`, each at its literal type. -/
abbrev blkRows (c : Dev nD) (t : Fin cfg0.N) : S512x1024.Idx → EReal := iblk0 V c 0 t
abbrev blkWt (c : Dev nD) (t : Fin cfg0.N) : S1024x3072.Idx → EReal := iblk0 V c 1 t
abbrev blkBias (c : Dev nD) (t : Fin cfg0.N) : S3072.Idx → EReal := iblk0 V c 2 t

theorem hz2 : (![0, 0] : Fin 2 → Nat) = fun _ => 0 := funext fun a => by fin_cases a <;> rfl
theorem hz1 : (![0] : Fin 1 → Nat) = fun _ => 0 := funext fun a => by fin_cases a; rfl

theorem N8 : cfg0.N = 8 := by decide

/-- The block indices, decided over the eight points: the row matrix and the three slabs move with the point along
    the rows; the weight and the bias stay whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of row block `t`. -/
def brow (t : Fin cfg0.N) (p : Fin 512) : Fin 4096 :=
  ⟨512 * t.val + p.val, by have ht : t.val < 8 := lt_of_lt_of_eq t.isLt N8; have := p.isLt; omega⟩

/-- The row block of point `t`, at an entry. -/
theorem rows_apply (c : Dev nD) (t : Fin cfg0.N) (p : Fin 512) (k : Fin 1024) :
    blkRows V c t (ix2 p k) = rowsA V c (ix2 (brow t p) k) := by
  obtain ⟨e00, e01, -⟩ := idx_facts t
  show V c main_v14 (((cfg0.win 0).blk t).view.emb (ix2 p k)) = V c main_v14 (ix2 (brow t p) k)
  refine congrArg (V c main_v14) (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * k.val = k.val; omega

/-- The weight's block is the whole weight. -/
theorem wt_apply (c : Dev nD) (t : Fin cfg0.N) (y : S1024x3072.Idx) : blkWt V c t y = wtA V c y := by
  obtain ⟨-, -, e10, e11, -⟩ := idx_facts t
  show V c main_v11 (((cfg0.win 1).blk t).view.emb y) = V c main_v11 y
  refine congrArg (V c main_v11) (funext fun a => Fin.ext ?_)
  match a with
  | ⟨0, _⟩ => show win0_1.index t (0 : Fin 2) * 1024 + 1 * (y 0).val = (y 0).val; omega
  | ⟨1, _⟩ => show win0_1.index t (1 : Fin 2) * 3072 + 1 * (y 1).val = (y 1).val; omega

/-- The bias's block is the whole bias. -/
theorem bias_apply (c : Dev nD) (t : Fin cfg0.N) (y : S3072.Idx) : blkBias V c t y = biasA V c y := by
  obtain ⟨-, -, -, -, e20, -⟩ := idx_facts t
  show V c main_v9 (((cfg0.win 2).blk t).view.emb y) = V c main_v9 y
  refine congrArg (V c main_v9) (funext fun a => Fin.ext ?_)
  match a with
  | ⟨0, _⟩ => show win0_2.index t (0 : Fin 1) * 3072 + 1 * (y 0).val = (y 0).val; omega

/-- The slab at row `r`, column `q`. -/
theorem slab_apply (o : Fin 3) (A : Srows.Idx → EReal) (Wt : SWt.Idx → EReal) (Bg : Sbq.Idx → EReal) (r : Fin 4096) (q : Fin 1024) :
    slab o A Wt Bg (ix2 r q)
      = (∑ d : Fin 1024, A (ix2 r d) * Wt (ix2 d ⟨1024 * o.val + q.val, by have := o.isLt; have := q.isLt; omega⟩))
        + Bg (ix1 ⟨1024 * o.val + q.val, by have := o.isLt; have := q.isLt; omega⟩) := rfl

/-- What the body's band from column 1024·o holds at (p, q), over the blocks of point `t`, is the slab at row 512t + p. -/
theorem block_slab (o : Fin 3) (oo : Nat) (hoo : oo = 1024 * o.val) (hq : oo + 1024 ≤ 3072) (c : Dev nD) (t : Fin cfg0.N) (p : Fin 512) (q : Fin 1024) :
    (∑ k : Fin 1024, blkRows V c t (ix2 p k) * blkWt V c t (ix2 k ⟨oo + q.val, by have := q.isLt; omega⟩))
        + blkBias V c t (ix1 ⟨oo + q.val, by have := q.isLt; omega⟩)
      = slab o (rowsA V c) (wtA V c) (biasA V c) (ix2 (brow t p) q) := by
  subst hoo
  rw [slab_apply]
  refine congr (congrArg HAdd.hAdd (Finset.sum_congr rfl fun k _ => ?_)) ?_
  · rw [rows_apply, wt_apply]
  · rw [bias_apply]

/-! ## The query slab (window 3) -/

/-- An entry of point `t`'s block of the query slab sits at row 512t + p, column q of the array. -/
theorem embQ (t : Fin cfg0.N) (p : Fin 512) (q : Fin 1024) :
    ((cfg0.win 3).blk t).view.emb (ix2 p q) = ix2 (brow t p) q := by
  obtain ⟨-, -, -, -, -, e30, e31, e40, e41, e50, e51⟩ := idx_facts t
  funext a; apply Fin.ext
  match a with
  | ⟨0, _⟩ => show win0_3.index t (0 : Fin 2) * 512 + 1 * p.val = 512 * t.val + p.val; omega
  | ⟨1, _⟩ => show win0_3.index t (1 : Fin 2) * 1024 + 1 * q.val = q.val; omega

/-- What point `t` writes back is its block of the slab. -/
theorem flushedQ (c : Dev nD) (t : Fin cfg0.N) :
    (dat0 (F := Ideal) V c).flushed 3 t
      = ((cfg0.win 3).blk t).view.read (Elt Ideal) (slab 0 (rowsA V c) (wtA V c) (biasA V c)) := by
  show (cfg0.win 3).cut (grid0.coords t) ((dat0 (F := Ideal) V c).after 3 t) = _
  rw [after0_3]
  unfold out0_3
  rw [View.canon_unit_zero hz2]
  simp only [View.ld_unit_zero (S := S512x1024) hz2, View.ld_unit_zero (S := S1024x3072) hz2, View.ld_unit_zero (S := S3072) hz1]
  funext j
  obtain ⟨p, q, rfl⟩ : ∃ (p : Fin 512) (q : Fin 1024), j = ix2 p q := ⟨j 0, j 1, eq_ix2 j⟩
  show k0_pay2 (F := Ideal) (iblk0 V c 0 t) (iblk0 V c 1 t) (iblk0 V c 2 t) (ix2 p q)
    = slab 0 (rowsA V c) (wtA V c) (biasA V c) (((cfg0.win 3).blk t).view.emb (ix2 p q))
  rw [embQ]
  refine (pay2_apply (blkRows V c t) (blkWt V c t) (blkBias V c t) p q).trans ?_
  exact block_slab V 0 0 (by decide) (by omega) c t p q

/-- An index of the array is in point `t`'s block iff each coordinate is in the block's range on its axis. -/
theorem mem_blkQ (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v15_0).slice (win0_3.rect t)).set ↔ _
  rw [View.set_slice_whole, Rect.mem_set_unit]
  exact Iff.rfl

/-- The eight row blocks cover the array: row r is in the block of point r / 512. -/
theorem coverQ (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ : ∃ t : Fin cfg0.N, t.val = (i 0).val / 512 := ⟨⟨(i 0).val / 512, by rw [N8]; omega⟩, rfl⟩
  obtain ⟨-, -, -, -, -, e30, e31, e40, e41, e50, e51⟩ := idx_facts t
  refine ⟨t, flush0_3 t, ?_⟩
  rw [mem_blkQ]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The query slab after the region. -/
theorem slabQ (c : Dev nD) :
    (dat0 (F := Ideal) V c).arrAt 3 cfg0.N = slab 0 (V c main_v14) (V c main_v11) (V c main_v9) :=
  (dat0 (F := Ideal) V c).arrAt_eq_of_cover 3 (slab 0 (rowsA V c) (wtA V c) (biasA V c)) (fun t _ => flushedQ V c t) coverQ

/-! ## The key slab (window 4) -/

/-- An entry of point `t`'s block of the key slab sits at row 512t + p, column q of the array. -/
theorem embK (t : Fin cfg0.N) (p : Fin 512) (q : Fin 1024) :
    ((cfg0.win 4).blk t).view.emb (ix2 p q) = ix2 (brow t p) q := by
  obtain ⟨-, -, -, -, -, e30, e31, e40, e41, e50, e51⟩ := idx_facts t
  funext a; apply Fin.ext
  match a with
  | ⟨0, _⟩ => show win0_4.index t (0 : Fin 2) * 512 + 1 * p.val = 512 * t.val + p.val; omega
  | ⟨1, _⟩ => show win0_4.index t (1 : Fin 2) * 1024 + 1 * q.val = q.val; omega

/-- What point `t` writes back is its block of the slab. -/
theorem flushedK (c : Dev nD) (t : Fin cfg0.N) :
    (dat0 (F := Ideal) V c).flushed 4 t
      = ((cfg0.win 4).blk t).view.read (Elt Ideal) (slab 1 (rowsA V c) (wtA V c) (biasA V c)) := by
  show (cfg0.win 4).cut (grid0.coords t) ((dat0 (F := Ideal) V c).after 4 t) = _
  rw [after0_4]
  unfold out0_4
  rw [View.canon_unit_zero hz2]
  simp only [View.ld_unit_zero (S := S512x1024) hz2, View.ld_unit_zero (S := S1024x3072) hz2, View.ld_unit_zero (S := S3072) hz1]
  funext j
  obtain ⟨p, q, rfl⟩ : ∃ (p : Fin 512) (q : Fin 1024), j = ix2 p q := ⟨j 0, j 1, eq_ix2 j⟩
  show k0_pay3 (F := Ideal) (iblk0 V c 0 t) (iblk0 V c 1 t) (iblk0 V c 2 t) (ix2 p q)
    = slab 1 (rowsA V c) (wtA V c) (biasA V c) (((cfg0.win 4).blk t).view.emb (ix2 p q))
  rw [embK]
  refine (pay3_apply (blkRows V c t) (blkWt V c t) (blkBias V c t) p q).trans ?_
  exact block_slab V 1 1024 (by decide) (by omega) c t p q

/-- An index of the array is in point `t`'s block iff each coordinate is in the block's range on its axis. -/
theorem mem_blkK (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v15_1).slice (win0_4.rect t)).set ↔ _
  rw [View.set_slice_whole, Rect.mem_set_unit]
  exact Iff.rfl

/-- The eight row blocks cover the array: row r is in the block of point r / 512. -/
theorem coverK (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  obtain ⟨t, ht⟩ : ∃ t : Fin cfg0.N, t.val = (i 0).val / 512 := ⟨⟨(i 0).val / 512, by rw [N8]; omega⟩, rfl⟩
  obtain ⟨-, -, -, -, -, e30, e31, e40, e41, e50, e51⟩ := idx_facts t
  refine ⟨t, flush0_4 t, ?_⟩
  rw [mem_blkK]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The key slab after the region. -/
theorem slabK (c : Dev nD) :
    (dat0 (F := Ideal) V c).arrAt 4 cfg0.N = slab 1 (V c main_v14) (V c main_v11) (V c main_v9) :=
  (dat0 (F := Ideal) V c).arrAt_eq_of_cover 4 (slab 1 (rowsA V c) (wtA V c) (biasA V c)) (fun t _ => flushedK V c t) coverK

/-! ## The value slab (window 5) -/

/-- An entry of point `t`'s block of the value slab sits at row 512t + p, column q of the array. -/
theorem embV (t : Fin cfg0.N) (p : Fin 512) (q : Fin 1024) :
    ((cfg0.win 5).blk t).view.emb (ix2 p q) = ix2 (brow t p) q := by
  obtain ⟨-, -, -, -, -, e30, e31, e40, e41, e50, e51⟩ := idx_facts t
  funext a; apply Fin.ext
  match a with
  | ⟨0, _⟩ => show win0_5.index t (0 : Fin 2) * 512 + 1 * p.val = 512 * t.val + p.val; omega
  | ⟨1, _⟩ => show win0_5.index t (1 : Fin 2) * 1024 + 1 * q.val = q.val; omega

/-- What point `t` writes back is its block of the slab. -/
theorem flushedV (c : Dev nD) (t : Fin cfg0.N) :
    (dat0 (F := Ideal) V c).flushed 5 t
      = ((cfg0.win 5).blk t).view.read (Elt Ideal) (slab 2 (rowsA V c) (wtA V c) (biasA V c)) := by
  show (cfg0.win 5).cut (grid0.coords t) ((dat0 (F := Ideal) V c).after 5 t) = _
  rw [after0_5]
  unfold out0_5
  rw [View.canon_unit_zero hz2]
  simp only [View.ld_unit_zero (S := S512x1024) hz2, View.ld_unit_zero (S := S1024x3072) hz2, View.ld_unit_zero (S := S3072) hz1]
  funext j
  obtain ⟨p, q, rfl⟩ : ∃ (p : Fin 512) (q : Fin 1024), j = ix2 p q := ⟨j 0, j 1, eq_ix2 j⟩
  show k0_pay4 (F := Ideal) (iblk0 V c 0 t) (iblk0 V c 1 t) (iblk0 V c 2 t) (ix2 p q)
    = slab 2 (rowsA V c) (wtA V c) (biasA V c) (((cfg0.win 5).blk t).view.emb (ix2 p q))
  rw [embV]
  refine (pay4_apply (blkRows V c t) (blkWt V c t) (blkBias V c t) p q).trans ?_
  exact block_slab V 2 2048 (by decide) (by omega) c t p q

/-- An index of the array is in point `t`'s block iff each coordinate is in the block's range on its axis. -/
theorem mem_blkV (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v15_2).slice (win0_5.rect t)).set ↔ _
  rw [View.set_slice_whole, Rect.mem_set_unit]
  exact Iff.rfl

/-- The eight row blocks cover the array: row r is in the block of point r / 512. -/
theorem coverV (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht⟩ : ∃ t : Fin cfg0.N, t.val = (i 0).val / 512 := ⟨⟨(i 0).val / 512, by rw [N8]; omega⟩, rfl⟩
  obtain ⟨-, -, -, -, -, e30, e31, e40, e41, e50, e51⟩ := idx_facts t
  refine ⟨t, flush0_5 t, ?_⟩
  rw [mem_blkV]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The value slab after the region. -/
theorem slabV (c : Dev nD) :
    (dat0 (F := Ideal) V c).arrAt 5 cfg0.N = slab 2 (V c main_v14) (V c main_v11) (V c main_v9) :=
  (dat0 (F := Ideal) V c).arrAt_eq_of_cover 5 (slab 2 (rowsA V c) (wtA V c) (biasA V c)) (fun t _ => flushedV V c t) coverV

end Cert.KernelIdeal.Region0

end
-- ==== Proof.LibColumns.lean ====
/- Three readings of layout operations at an index written by coordinates, at any extents and any element type:
   a one-column matrix broadcast along its rows; a column of a [1, a, b] block after its unit axis is dropped; a row of the
   transpose of such a block. Each composes the library's one-operation readings (a slice along one axis, a transpose, a
   dropped leading unit axis, a broadcast) for the shape a kernel body meets when it splits a block of 3-vectors
   into its coordinate columns (or, transposed, its coordinate rows) and broadcasts them against each other. -/
import Idealize.ShloMosaic.Lib.Pipeline.Value
import Idealize.ShloMosaic.Lib.ValueIdx
import Idealize.ShloMosaic.Lib.ValueLayout

namespace Cert.LibColumns

open Idealize.ShloMosaic Idealize.ShloMosaic.ValueIdx

/-- A one-column matrix [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of a [1, a, b] block, taken (as the slice at column offset o = k) after the unit axis is dropped, reads at
    row r the block's entry (0, r, k). -/
theorem column_apply {α : Type} {a b : ℕ} (o : ℕ) (x : (⟨3, ![1, a, b]⟩ : Shape).Idx → α)
    (hc : (⟨3, ![1, a, b]⟩ : Shape).ShapeCasts ⟨2, ![a, b]⟩) (hs : (⟨2, ![a, b]⟩ : Shape).Slices ![0, o] ⟨2, ![a, 1]⟩)
    (r : Fin a) (k : Fin b) (hk : k.val = o) :
    extractStridedSlice ⟨2, ![a, 1]⟩ ![0, o] (shapeCast ⟨2, ![a, b]⟩ x hc) hs (ix2 r (0 : Fin 1)) = x (ix3 (0 : Fin 1) r k) :=
  (slice2_axis1_apply o _ hs r (0 : Fin 1) k (by rw [hk]; rfl)).trans (shapeCast_1ab_ab_apply x hc r k)

/-- Row k of the transpose of a [1, a, b] block (the unit axis dropped first; the slice at row offset o = k) reads at
    column q the block's entry (0, q, k). -/
theorem transposed_row_apply {α : Type} {a b : ℕ} (o : ℕ) (x : (⟨3, ![1, a, b]⟩ : Shape).Idx → α)
    (hc : (⟨3, ![1, a, b]⟩ : Shape).ShapeCasts ⟨2, ![a, b]⟩) (ht : (⟨2, ![a, b]⟩ : Shape).Transposes [1, 0] ⟨2, ![b, a]⟩)
    (hs : (⟨2, ![b, a]⟩ : Shape).Slices ![o, 0] ⟨2, ![1, a]⟩) (q : Fin a) (k : Fin b) (hk : k.val = o) :
    extractStridedSlice ⟨2, ![1, a]⟩ ![o, 0] (transpose ⟨2, ![b, a]⟩ [1, 0] (shapeCast ⟨2, ![a, b]⟩ x hc) ht) hs (ix2 (0 : Fin 1) q)
      = x (ix3 (0 : Fin 1) q k) :=
  (slice2_axis0_apply o _ hs (0 : Fin 1) q k (by rw [hk]; rfl)).trans
    ((transpose_ix2_apply _ ht k q).trans (shapeCast_1ab_ab_apply x hc q k))

end Cert.LibColumns
-- ==== Proof.Region1Body.lean ====
/-
  One grid point of the attention region, as arithmetic on its four loaded blocks: a query block q : [1, 512, 128], key
  and value blocks k, v : [1, 2048, 128] (two heads side by side, 64 columns each) and a mask block [512, 2048]. Entry
  (0, r, cc) of what the point stores is, for the head owning block column cc (columns 64·(cc/64) …): the query row r
  scaled by 1/8, multiplied into every key row, the mask row added; the row maximum subtracted, the exponentials taken;
  their weighted sum of value column cc divided by their sum — `Cert.MHA.kAttn`. The first head's entries come whole
  from one payload, the second head's logits from another and its softmax from the storing payload; the two are laid
  side by side along the columns.
-/
import proofs.«413744_j12515534701302_3_alg».proof.Proof.Gen.KernelIdeal.Skeleton
import proofs.«413744_j12515534701302_3_alg».proof.Proof.Spec
import proofs.«413744_j12515534701302_3_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1Body

open Cert.KernelIdeal Cert.KernelIdeal.Gen Cert.MHA
open Idealize.ShloMosaic Idealize.ShloMosaic.ValueIdx

/-! ## The two products at an index -/

theorem lhs_qk_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_qk_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_qk_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_qk_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The first product (rows of the query band against the transposed key band) into the zero block, at (p, t): the
    sum over the 64 coordinates. -/
theorem matmul_qk_apply {φ₁ φ₂ : FTy} (a : FVec Ideal S512x64 φ₁) (b : FVec Ideal S64x2048 φ₂) (p : Fin 512) (t : Fin 2048) :
    matmul dot_S512x64_S64x2048_S512x2048_1_0_0_1_n_n none a b (constant (F := Ideal) S512x2048 .f32 0x00000000#32) (ix2 p t)
      = ∑ d : Fin 64, a (ix2 p d) * b (ix2 d t) := by
  refine (Ideal.matmul_constant_zero_apply _ none a b (ix2 p t)).trans ?_
  rw [← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p t) ((contrEquiv1 dot_S512x64_S64x2048_S512x2048_1_0_0_1_n_n 64 rfl rfl).symm k) = ix2 p k := funext fun c => Fin.ext (by
    match c with
    | ⟨0, _⟩ => exact lhs_qk_0 _ _
    | ⟨1, _⟩ => exact (lhs_qk_1 _ _).trans hk)
  have er : dot_S512x64_S64x2048_S512x2048_1_0_0_1_n_n.rhsIdx (ix2 p t) ((contrEquiv1 dot_S512x64_S64x2048_S512x2048_1_0_0_1_n_n 64 rfl rfl).symm k) = ix2 k t := funext fun c => Fin.ext (by
    match c with
    | ⟨0, _⟩ => exact (rhs_qk_0 _ _).trans hk
    | ⟨1, _⟩ => exact rhs_qk_1 _ _)
  rw [el, er]

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The second product (the weights' rows against a value band) into the zero block, at (p, c): the sum over the 2048
    key rows. -/
theorem matmul_pv_apply {φ₁ φ₂ : FTy} (a : FVec Ideal S512x2048 φ₁) (b : FVec Ideal S2048x64 φ₂) (p : Fin 512) (c : Fin 64) :
    matmul dot_S512x2048_S2048x64_S512x64_1_0_0_1_n_n none a b (constant (F := Ideal) S512x64 .f32 0x00000000#32) (ix2 p c)
      = ∑ t : Fin 2048, a (ix2 p t) * b (ix2 t c) := by
  refine (Ideal.matmul_constant_zero_apply _ none a b (ix2 p c)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p c) ((contrEquiv1 dot_S512x2048_S2048x64_S512x64_1_0_0_1_n_n 2048 rfl rfl).symm k) = ix2 p k := funext fun e => Fin.ext (by
    match e with
    | ⟨0, _⟩ => exact lhs_pv_0 _ _
    | ⟨1, _⟩ => exact (lhs_pv_1 _ _).trans hk)
  have er : dot_S512x2048_S2048x64_S512x64_1_0_0_1_n_n.rhsIdx (ix2 p c) ((contrEquiv1 dot_S512x2048_S2048x64_S512x64_1_0_0_1_n_n 2048 rfl rfl).symm k) = ix2 k c := funext fun e => Fin.ext (by
    match e with
    | ⟨0, _⟩ => exact (rhs_pv_0 _ _).trans hk
    | ⟨1, _⟩ => exact rhs_pv_1 _ _)
  rw [el, er]

/-! ## A row's reductions, and the column they are cast to -/

/-- Row p's index at column t, as the reduction over axis 1 inserts it. -/
theorem lift_row (h : S512x2048.Reduces [1] S512) (p : Fin 512) (t : Fin 2048) : h.lift (ix1 p) t = ix2 p t := by
  funext c
  apply Fin.ext
  match c with
  | ⟨0, _⟩ => rfl
  | ⟨1, _⟩ => rfl

/-- The row maximum from minus infinity. -/
theorem rowmax_apply (v : FVec Ideal S512x2048 .f32) (h : S512x2048.Reduces [1] S512) (hφ : FKind.Formats FTy.f32)
    (hacc : (0xFF800000#32 : BitVec FTy.f32.bits) = FKind.maximumf.neutral .f32 hφ) (p : Fin 512) :
    multiReduction (F := Ideal) .maximumf [1] S512 v 0xFF800000#32 h hφ hacc (ix1 p)
      = Finset.univ.fold max ninf (fun t : Fin 2048 => v (ix2 p t)) := by
  refine (Ideal.multiReduction_maximumf_single v _ h hφ hacc (ix1 p)).trans ?_
  exact congrArg (Finset.univ.fold max ninf) (funext fun t => congrArg v (lift_row h p t))

/-- The row sum. -/
theorem rowsum_apply (v : FVec Ideal S512x2048 .f32) (h : S512x2048.Reduces [1] S512) (hφ : FKind.Formats FTy.f32)
    (hacc : (0x00000000#32 : BitVec FTy.f32.bits) = FKind.add.neutral .f32 hφ) (p : Fin 512) :
    multiReduction (F := Ideal) .add [1] S512 v 0x00000000#32 h hφ hacc (ix1 p) = ∑ t : Fin 2048, v (ix2 p t) := by
  refine (Ideal.multiReduction_add_single v _ h hφ hacc (ix1 p)).trans ?_
  exact Finset.sum_congr rfl fun t _ => congrArg v (lift_row h p t)

/-- An [a] array cast to the one-column matrix [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## One head, over an abstract column offset -/

/-- The scaled query block at (r, k): the unit axis dropped, the entry times 1/8. -/
theorem pay4_apply (x0 : Vec Ideal S1x512x128 .bf16) (r : Fin 512) (k : Fin 128) :
    k1_pay4 (F := Ideal) x0 (ix2 r k) = x0 (ix3 (0 : Fin 1) r k) * c8 := by
  unfold k1_pay4
  exact congrArg (· * c8) (shapeCast_1ab_ab_apply x0 _ r k)

/-- The key block at (t, k): the unit axis dropped. -/
theorem pay2_apply (x1 : Vec Ideal S1x2048x128 .bf16) (t : Fin 2048) (k : Fin 128) :
    k1_pay2 (F := Ideal) x1 (ix2 t k) = x1 (ix3 (0 : Fin 1) t k) := by
  unfold k1_pay2
  exact shapeCast_1ab_ab_apply x1 _ t k

/-- The value block at (t, k): the unit axis dropped. -/
theorem pay3_apply (x2 : Vec Ideal S1x2048x128 .bf16) (t : Fin 2048) (k : Fin 128) :
    k1_pay3 (F := Ideal) x2 (ix2 t k) = x2 (ix3 (0 : Fin 1) t k) := by
  unfold k1_pay3
  exact shapeCast_1ab_ab_apply x2 _ t k

/-- The logit of query row r against key row t, for the head whose columns start at o: the band of the scaled queries
    against the transposed band of the keys, plus the mask — the kernel's score. -/
theorem logits_apply (o : ℕ) (x0 : Vec Ideal S1x512x128 .bf16) (x1 : Vec Ideal S1x2048x128 .bf16) (x3 : Vec Ideal S512x2048 .f32)
    (hsq : S512x128.Slices ![0, o] S512x64) (hsk : S2048x128.Slices ![0, o] S2048x64)
    (ht : S2048x64.Transposes [1, 0] S64x2048) (col : Fin 64 → Fin 128) (hcol : ∀ d, (col d).val = o + d.val)
    (r : Fin 512) (t : Fin 2048) :
    addf (matmul dot_S512x64_S64x2048_S512x2048_1_0_0_1_n_n none (extractStridedSlice S512x64 ![0, o] (k1_pay4 (F := Ideal) x0) hsq)
        (transpose S64x2048 [1, 0] (extractStridedSlice S2048x64 ![0, o] (k1_pay2 (F := Ideal) x1) hsk) ht)
        (constant (F := Ideal) S512x2048 .f32 0x00000000#32)) x3 (ix2 r t)
      = kScore (fun d => x0 (ix3 (0 : Fin 1) r (col d))) (fun t d => x1 (ix3 (0 : Fin 1) t (col d))) (fun t => x3 (ix2 r t)) t := by
  refine congrArg (· + x3 (ix2 r t)) ?_
  refine (matmul_qk_apply _ _ r t).trans ?_
  refine Finset.sum_congr rfl fun d _ => ?_
  have e1 : extractStridedSlice S512x64 ![0, o] (k1_pay4 (F := Ideal) x0) hsq (ix2 r d) = x0 (ix3 (0 : Fin 1) r (col d)) * c8 :=
    (slice2_axis1_apply o _ hsq r d (col d) (hcol d)).trans (pay4_apply x0 r (col d))
  have e2 : transpose S64x2048 [1, 0] (extractStridedSlice S2048x64 ![0, o] (k1_pay2 (F := Ideal) x1) hsk) ht (ix2 d t)
      = x1 (ix3 (0 : Fin 1) t (col d)) :=
    (transpose_ix2_apply _ ht d t).trans ((slice2_axis1_apply o _ hsk t d (col d) (hcol d)).trans (pay2_apply x1 t (col d)))
  rw [e1, e2]

/-- A column of the value band starting at o. -/
theorem value_apply (o : ℕ) (x2 : Vec Ideal S1x2048x128 .bf16) (hsv : S2048x128.Slices ![0, o] S2048x64)
    (t : Fin 2048) (c : Fin 64) (cv : Fin 128) (hcv : cv.val = o + c.val) :
    extractStridedSlice S2048x64 ![0, o] (k1_pay3 (F := Ideal) x2) hsv (ix2 t c) = x2 (ix3 (0 : Fin 1) t cv) :=
  (slice2_axis1_apply o _ hsv t c cv hcv).trans (pay3_apply x2 t cv)

/-- The logits less their row maximum, at (p, t). -/
theorem centred_apply (L : FVec Ideal S512x2048 .f32) (hr : S512x2048.Reduces [1] S512) (hφ : FKind.Formats FTy.f32)
    (hacc : (0xFF800000#32 : BitVec FTy.f32.bits) = FKind.maximumf.neutral .f32 hφ) (hs : S512.ShapeCasts S512x1)
    (hb : S512x1.Broadcasts S512x2048) (p : Fin 512) (t : Fin 2048) :
    subf L (broadcastTo S512x2048 (shapeCast S512x1 (multiReduction (F := Ideal) .maximumf [1] S512 L 0xFF800000#32 hr hφ hacc) hs) hb) (ix2 p t)
      = L (ix2 p t) - Finset.univ.fold max ninf (fun u : Fin 2048 => L (ix2 p u)) := by
  refine congrArg (L (ix2 p t) - ·) ?_
  refine (Cert.LibColumns.broadcastTo_a1_ab_apply _ hb p t).trans ?_
  refine (shapeCast_a_a1_apply _ hs p 0).trans ?_
  exact rowmax_apply L hr hφ hacc p

/-- The exponentials of a centred block, multiplied into a value band and divided by their row sums, at (p, c). -/
theorem softmax_apply (C : FVec Ideal S512x2048 .f32) (vs : FVec Ideal S2048x64 .bf16) (hr : S512x2048.Reduces [1] S512)
    (hφ : FKind.Formats FTy.f32) (hacc : (0x00000000#32 : BitVec FTy.f32.bits) = FKind.add.neutral .f32 hφ)
    (hs : S512.ShapeCasts S512x1) (hb : S512x1.Broadcasts S512x64) (hlt : FTy.bits .bf16 < FTy.bits .f32)
    (p : Fin 512) (c : Fin 64) :
    truncf .bf16 (divf (matmul dot_S512x2048_S2048x64_S512x64_1_0_0_1_n_n none (truncf .bf16 (exp C) hlt) vs
          (constant (F := Ideal) S512x64 .f32 0x00000000#32))
        (broadcastTo S512x64 (shapeCast S512x1 (multiReduction (F := Ideal) .add [1] S512 (exp C) 0x00000000#32 hr hφ hacc) hs) hb)) hlt
        (ix2 p c)
      = Ideal.div (∑ t : Fin 2048, Ideal.exp (C (ix2 p t)) * vs (ix2 t c)) (∑ t : Fin 2048, Ideal.exp (C (ix2 p t))) := by
  have e1 : matmul dot_S512x2048_S2048x64_S512x64_1_0_0_1_n_n none (truncf .bf16 (exp C) hlt) vs
      (constant (F := Ideal) S512x64 .f32 0x00000000#32) (ix2 p c) = ∑ t : Fin 2048, Ideal.exp (C (ix2 p t)) * vs (ix2 t c) :=
    matmul_pv_apply _ vs p c
  have e2 : broadcastTo S512x64 (shapeCast S512x1 (multiReduction (F := Ideal) .add [1] S512 (exp C) 0x00000000#32 hr hφ hacc) hs) hb (ix2 p c)
      = ∑ t : Fin 2048, Ideal.exp (C (ix2 p t)) :=
    (Cert.LibColumns.broadcastTo_a1_ab_apply _ hb p c).trans
      ((shapeCast_a_a1_apply _ hs p 0).trans (rowsum_apply (exp C) hr hφ hacc p))
  show Ideal.div _ _ = _
  rw [e1, e2]

/-- With the centred block's row read as scores less their maximum, and the value band's column read as v, the entry is
    the kernel's attention entry. -/
theorem attn_of_rows (C : FVec Ideal S512x2048 .f32) (vs : FVec Ideal S2048x64 .bf16) (p : Fin 512) (c : Fin 64)
    (q : Fin 64 → EReal) (k : Fin 2048 → Fin 64 → EReal) (v mk : Fin 2048 → EReal)
    (hC : ∀ t, C (ix2 p t) = kScore q k mk t - Finset.univ.fold max ninf (kScore q k mk)) (hv : ∀ t, vs (ix2 t c) = v t) :
    Ideal.div (∑ t : Fin 2048, Ideal.exp (C (ix2 p t)) * vs (ix2 t c)) (∑ t : Fin 2048, Ideal.exp (C (ix2 p t))) = kAttn q k v mk := by
  have e1 : (∑ t : Fin 2048, Ideal.exp (C (ix2 p t)) * vs (ix2 t c))
      = ∑ t : Fin 2048, Ideal.exp (kScore q k mk t - Finset.univ.fold max ninf (kScore q k mk)) * v t :=
    Finset.sum_congr rfl fun t _ => by rw [hC t, hv t]
  have e2 : (∑ t : Fin 2048, Ideal.exp (C (ix2 p t)))
      = ∑ t : Fin 2048, Ideal.exp (kScore q k mk t - Finset.univ.fold max ninf (kScore q k mk)) :=
    Finset.sum_congr rfl fun t _ => by rw [hC t]
  rw [e1, e2]
  rfl

/-- One head whole, from its logits block L and its value band vs: at (p, c), where row p of L reads as the scores and
    column c of vs as v, the stored entry is the kernel's attention entry. -/
theorem head_apply (L : FVec Ideal S512x2048 .f32) (vs : FVec Ideal S2048x64 .bf16) (hr : S512x2048.Reduces [1] S512)
    (hφ : FKind.Formats FTy.f32) (haccM : (0xFF800000#32 : BitVec FTy.f32.bits) = FKind.maximumf.neutral .f32 hφ)
    (haccA : (0x00000000#32 : BitVec FTy.f32.bits) = FKind.add.neutral .f32 hφ)
    (hs : S512.ShapeCasts S512x1) (hbL : S512x1.Broadcasts S512x2048) (hb : S512x1.Broadcasts S512x64)
    (hlt : FTy.bits .bf16 < FTy.bits .f32) (p : Fin 512) (c : Fin 64)
    (q : Fin 64 → EReal) (k : Fin 2048 → Fin 64 → EReal) (v mk : Fin 2048 → EReal)
    (hL : ∀ t, L (ix2 p t) = kScore q k mk t) (hv : ∀ t, vs (ix2 t c) = v t) :
    truncf .bf16 (divf (matmul dot_S512x2048_S2048x64_S512x64_1_0_0_1_n_n none
          (truncf .bf16 (exp (subf L (broadcastTo S512x2048 (shapeCast S512x1
            (multiReduction (F := Ideal) .maximumf [1] S512 L 0xFF800000#32 hr hφ haccM) hs) hbL))) hlt) vs
          (constant (F := Ideal) S512x64 .f32 0x00000000#32))
        (broadcastTo S512x64 (shapeCast S512x1 (multiReduction (F := Ideal) .add [1] S512
          (exp (subf L (broadcastTo S512x2048 (shapeCast S512x1
            (multiReduction (F := Ideal) .maximumf [1] S512 L 0xFF800000#32 hr hφ haccM) hs) hbL))) 0x00000000#32 hr hφ haccA) hs) hb)) hlt
        (ix2 p c)
      = kAttn q k v mk := by
  refine (softmax_apply _ vs hr hφ haccA hs hb hlt p c).trans ?_
  refine attn_of_rows _ vs p c q k v mk (fun t => ?_) hv
  refine (centred_apply L hr hφ haccM hs hbL p t).trans ?_
  rw [hL t, show (fun u : Fin 2048 => L (ix2 p u)) = kScore q k mk from funext hL]

/-- The first head's payload at (r, c). -/
theorem pay6_apply (x0 : Vec Ideal S1x512x128 .bf16) (x1 x2 : Vec Ideal S1x2048x128 .bf16) (x3 : Vec Ideal S512x2048 .f32)
    (r : Fin 512) (c : Fin 64) (col : Fin 64 → Fin 128) (hcol : ∀ d, (col d).val = 0 + d.val) (cv : Fin 128)
    (hcv : cv.val = 0 + c.val) :
    k1_pay6 (F := Ideal) x0 x1 x2 x3 (ix2 r c)
      = kAttn (fun d => x0 (ix3 (0 : Fin 1) r (col d))) (fun t d => x1 (ix3 (0 : Fin 1) t (col d)))
          (fun t => x2 (ix3 (0 : Fin 1) t cv)) (fun t => x3 (ix2 r t)) := by
  unfold k1_pay6
  exact head_apply _ _ _ _ _ _ _ _ _ _ r c _ _ _ _ (fun t => logits_apply 0 x0 x1 x3 _ _ _ col hcol r t)
    (fun t => value_apply 0 x2 _ t c cv hcv)

/-- The second head, finished by the storing payload from the centred logits and the value band, at (r, c). -/
theorem pay1_right_apply (x0 : Vec Ideal S1x512x128 .bf16) (x1 x2 : Vec Ideal S1x2048x128 .bf16) (x3 : Vec Ideal S512x2048 .f32)
    (hr : S512x2048.Reduces [1] S512) (hφ : FKind.Formats FTy.f32)
    (haccA : (0x00000000#32 : BitVec FTy.f32.bits) = FKind.add.neutral .f32 hφ)
    (hs : S512.ShapeCasts S512x1) (hb : S512x1.Broadcasts S512x64) (hlt : FTy.bits .bf16 < FTy.bits .f32)
    (r : Fin 512) (c : Fin 64) (col : Fin 64 → Fin 128) (hcol : ∀ d, (col d).val = 64 + d.val) (cv : Fin 128)
    (hcv : cv.val = 64 + c.val) :
    truncf .bf16 (divf (matmul dot_S512x2048_S2048x64_S512x64_1_0_0_1_n_n none
          (truncf .bf16 (exp (k1_pay7 (F := Ideal) x0 x1 x3)) hlt) (k1_pay5 (F := Ideal) x2)
          (constant (F := Ideal) S512x64 .f32 0x00000000#32))
        (broadcastTo S512x64 (shapeCast S512x1 (multiReduction (F := Ideal) .add [1] S512
          (exp (k1_pay7 (F := Ideal) x0 x1 x3)) 0x00000000#32 hr hφ haccA) hs) hb)) hlt (ix2 r c)
      = kAttn (fun d => x0 (ix3 (0 : Fin 1) r (col d))) (fun t d => x1 (ix3 (0 : Fin 1) t (col d)))
          (fun t => x2 (ix3 (0 : Fin 1) t cv)) (fun t => x3 (ix2 r t)) := by
  unfold k1_pay7 k1_pay5
  exact head_apply _ _ _ _ _ _ _ _ _ _ r c _ _ _ _ (fun t => logits_apply 64 x0 x1 x3 _ _ _ col hcol r t)
    (fun t => value_apply 64 x2 _ t c cv hcv)

/-- Entry (0, r, cc) of the stored block is `kAttn` of query row r, the key rows and value column cc of cc's head, and
    mask row r. -/
theorem body_entry (x0 : Vec Ideal S1x512x128 .bf16) (x1 x2 : Vec Ideal S1x2048x128 .bf16) (x3 : Vec Ideal S512x2048 .f32)
    (r : Fin 512) (cc : Fin 128) :
    k1_pay1 (F := Ideal) (k1_pay5 x2) (k1_pay6 x0 x1 x2 x3) (k1_pay7 x0 x1 x3) (ix3 (0 : Fin 1) r cc)
      = kAttn (fun d => x0 (ix3 (0 : Fin 1) r (hcol128 cc d))) (fun t d => x1 (ix3 (0 : Fin 1) t (hcol128 cc d)))
          (fun t => x2 (ix3 (0 : Fin 1) t cc)) (fun t => x3 (ix2 r t)) := by
  unfold k1_pay1
  refine (shapeCast_ab_1ab_apply _ _ (0 : Fin 1) r cc).trans ?_
  by_cases hcc : cc.val < 64
  · refine (concatenate_pair_apply_left (s₁ := S512x64) (s₂ := S512x64) (1 : Fin S512x128.rank) _ _ _ (ix2 r cc) rfl (ix2 r (⟨cc.val, hcc⟩ : Fin 64)) (fun b => ?_)).trans ?_
    · match b with
      | ⟨0, _⟩ => rfl
      | ⟨1, _⟩ => rfl
    · exact pay6_apply x0 x1 x2 x3 r ⟨cc.val, hcc⟩ (hcol128 cc)
        (fun d => by show 64 * (cc.val / 64) + d.val = 0 + d.val; omega) cc (Nat.zero_add _).symm
  · have hge : 64 ≤ cc.val := Nat.le_of_not_lt hcc
    have hlt : cc.val - 64 < 64 := by have := cc.isLt; omega
    refine (concatenate_pair_apply_right (s₁ := S512x64) (s₂ := S512x64) (1 : Fin S512x128.rank) _ _ _ (ix2 r cc) rfl rfl (ix2 r (⟨cc.val - 64, hlt⟩ : Fin 64)) (fun b => ?_) ?_).trans ?_
    · match b with
      | ⟨0, _⟩ => exact fun _ => rfl
      | ⟨1, _⟩ => exact fun hne => absurd rfl hne
    · show cc.val - 64 + 64 = cc.val
      omega
    · exact pay1_right_apply x0 x1 x2 x3 _ _ _ _ _ _ r ⟨cc.val - 64, hlt⟩ (hcol128 cc)
        (fun d => by show 64 * (cc.val / 64) + d.val = 64 + d.val; have := cc.isLt; omega) cc
        (by show cc.val = 64 + (cc.val - 64); omega)

end Cert.KernelIdeal.Region1Body

end
-- ==== Proof.Region1.lean ====
/-
  The second region (attention), read as values: grid point (qi, b, hp) takes query rows 512qi … of batch b, columns
  128hp … 128hp+127 (two heads), all 2048 key and value rows of those columns and mask rows 512qi …; for each of the
  two heads it forms the scaled logits, their row maximum, the exponentials, their sum, and the weighted sum of the
  value columns divided by that sum, and writes the two heads side by side. The 64 blocks tile the output, which ends
  as ONE function of the slabs and the mask (`Cert.MHA.heads`).
-/
import proofs.«413744_j12515534701302_3_alg».proof.Proof.Gen.KernelIdeal.Frame
import proofs.«413744_j12515534701302_3_alg».proof.Proof.Spec
import proofs.«413744_j12515534701302_3_alg».proof.Proof.LibColumns
import proofs.«413744_j12515534701302_3_alg».proof.Proof.Region1Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.MHA
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block index maps over the grid: the query block moves with the output block; the key and value blocks share
    its batch and column-block and take every row; the mask block takes the output's row-block and every column. -/
theorem idx_facts : ∀ t : Fin cfg1.N,
    win1_0.index t (0 : Fin 3) = win1_4.index t (0 : Fin 3)
    ∧ win1_0.index t (1 : Fin 3) = win1_4.index t (1 : Fin 3)
    ∧ win1_0.index t (2 : Fin 3) = win1_4.index t (2 : Fin 3)
    ∧ win1_1.index t (0 : Fin 3) = win1_4.index t (0 : Fin 3)
    ∧ win1_1.index t (1 : Fin 3) = 0
    ∧ win1_1.index t (2 : Fin 3) = win1_4.index t (2 : Fin 3)
    ∧ win1_2.index t (0 : Fin 3) = win1_4.index t (0 : Fin 3)
    ∧ win1_2.index t (1 : Fin 3) = 0
    ∧ win1_2.index t (2 : Fin 3) = win1_4.index t (2 : Fin 3)
    ∧ win1_3.index t (0 : Fin 2) = win1_4.index t (1 : Fin 3)
    ∧ win1_3.index t (1 : Fin 2) = 0
    ∧ win1_4.index t (0 : Fin 3) ≤ 1 ∧ win1_4.index t (1 : Fin 3) ≤ 3 ∧ win1_4.index t (2 : Fin 3) ≤ 7 :=
  (by decide +kernel : ∀ t : Fin grid1.N, _)

/-- Every block of the output's 2 × 4 × 8 box of blocks is some point's. -/
theorem idx_onto : ∀ (q0 : Fin 2) (q1 : Fin 4) (q2 : Fin 8), ∃ t : Fin cfg1.N, win1_4.index t = ![q0.val, q1.val, q2.val] :=
  (by decide +kernel : ∀ (q0 : Fin 2) (q1 : Fin 4) (q2 : Fin 8), ∃ t : Fin grid1.N, win1_4.index t = ![q0.val, q1.val, q2.val])

set_option maxHeartbeats 400000 in
/-- What point `t` writes back is block `t` of `heads` of the slabs and the mask as the region finds them. -/
theorem flushed_eq (c : Dev nD) (t : Fin cfg1.N) :
    (dat1 (F := Ideal) V c).flushed 4 t
      = ((cfg1.win 4).blk t).view.read (Elt Ideal) (heads (V c main_v16) (V c main_v17) (V c main_v18) (V c main_arg1)) := by
  show (cfg1.win 4).cut (grid1.coords t) ((dat1 V c).after 4 t) = _
  rw [after1_4]
  unfold out1_4
  rw [View.canon_unit_zero hz3]
  simp only [View.ld_unit_zero (S := S1x512x128) hz3, View.ld_unit_zero (S := S1x2048x128) hz3, View.ld_unit_zero (S := S512x2048) hz2]
  obtain ⟨e00, e01, e02, e10, e11, e12, e20, e21, e22, e30, e31, b0, b1, b2⟩ := idx_facts t
  funext y
  obtain ⟨u, r, cc, rfl⟩ : ∃ (u : Fin 1) (r : Fin 512) (cc : Fin 128), y = ix3 u r cc := ⟨y 0, y 1, y 2, eq_ix3 y⟩
  obtain rfl : u = 0 := Subsingleton.elim _ _
  refine (Region1Body.body_entry (iblk1 V c 0 t) (iblk1 V c 1 t) (iblk1 V c 2 t) (iblk1 V c 3 t) r cc).trans ?_
  show kAttn _ _ _ _ = kAttn _ _ _ _
  have hr : r.val < 512 := r.isLt
  have hcc : cc.val < 128 := cc.isLt
  congr 1
  · funext d
    have hd : d.val < 64 := d.isLt
    show V c main_v16 (((cfg1.win 0).blk t).view.emb (ix3 (0 : Fin 1) r (hcol128 cc d))) = V c main_v16 _
    congr 1
    funext a; apply Fin.ext
    match a with
    | ⟨0, _⟩ => show win1_0.index t (0 : Fin 3) * 1 + 1 * 0 = win1_4.index t (0 : Fin 3) * 1 + 1 * 0; omega
    | ⟨1, _⟩ => show win1_0.index t (1 : Fin 3) * 512 + 1 * r.val = win1_4.index t (1 : Fin 3) * 512 + 1 * r.val; omega
    | ⟨2, _⟩ => show win1_0.index t (2 : Fin 3) * 128 + 1 * (64 * (cc.val / 64) + d.val) = 64 * ((win1_4.index t (2 : Fin 3) * 128 + 1 * cc.val) / 64) + d.val; omega
  · funext s d
    have hs : s.val < 2048 := s.isLt
    have hd : d.val < 64 := d.isLt
    show V c main_v17 (((cfg1.win 1).blk t).view.emb (ix3 (0 : Fin 1) s (hcol128 cc d))) = V c main_v17 _
    congr 1
    funext a; apply Fin.ext
    match a with
    | ⟨0, _⟩ => show win1_1.index t (0 : Fin 3) * 1 + 1 * 0 = win1_4.index t (0 : Fin 3) * 1 + 1 * 0; omega
    | ⟨1, _⟩ => show win1_1.index t (1 : Fin 3) * 2048 + 1 * s.val = s.val; omega
    | ⟨2, _⟩ => show win1_1.index t (2 : Fin 3) * 128 + 1 * (64 * (cc.val / 64) + d.val) = 64 * ((win1_4.index t (2 : Fin 3) * 128 + 1 * cc.val) / 64) + d.val; omega
  · funext s
    have hs : s.val < 2048 := s.isLt
    show V c main_v18 (((cfg1.win 2).blk t).view.emb (ix3 (0 : Fin 1) s cc)) = V c main_v18 _
    congr 1
    funext a; apply Fin.ext
    match a with
    | ⟨0, _⟩ => show win1_2.index t (0 : Fin 3) * 1 + 1 * 0 = win1_4.index t (0 : Fin 3) * 1 + 1 * 0; omega
    | ⟨1, _⟩ => show win1_2.index t (1 : Fin 3) * 2048 + 1 * s.val = s.val; omega
    | ⟨2, _⟩ => show win1_2.index t (2 : Fin 3) * 128 + 1 * cc.val = win1_4.index t (2 : Fin 3) * 128 + 1 * cc.val; omega
  · funext s
    have hs : s.val < 2048 := s.isLt
    show V c main_arg1 (((cfg1.win 3).blk t).view.emb (ix2 r s)) = V c main_arg1 _
    congr 1
    funext a; apply Fin.ext
    match a with
    | ⟨0, _⟩ => show win1_3.index t (0 : Fin 2) * 512 + 1 * r.val = win1_4.index t (1 : Fin 3) * 512 + 1 * r.val; omega
    | ⟨1, _⟩ => show win1_3.index t (1 : Fin 2) * 2048 + 1 * s.val = s.val; omega

/-- An index of the array is in point `t`'s block iff each coordinate is in the block's range on its axis. -/
theorem mem_blk (t : Fin cfg1.N) (i : S2x2048x1024.Idx) :
    i ∈ ((cfg1.win 4).blk t).view.set ↔ ∀ a : Fin 3, win1_4.index t a * S1x512x128.size a ≤ (i a).val ∧ (i a).val < win1_4.index t a * S1x512x128.size a + S1x512x128.size a := by
  show i ∈ ((View.whole main_v19).slice (win1_4.rect t)).set ↔ _
  rw [View.set_slice_whole, Rect.mem_set_unit]
  exact Iff.rfl

/-- Every index of the output lies in some point's block: row s in row-block s / 512, column col in column-block col / 128. -/
theorem cover (i : S2x2048x1024.Idx) :
    ∃ t : Fin cfg1.N, (cfg1.win 4).flush t = true ∧ i ∈ ((cfg1.win 4).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, by omega⟩ ⟨(i 1).val / 512, by omega⟩ ⟨(i 2).val / 128, by omega⟩
  have q0 : win1_4.index t (0 : Fin 3) = (i 0).val := congrFun ht 0
  have q1 : win1_4.index t (1 : Fin 3) = (i 1).val / 512 := congrFun ht 1
  have q2 : win1_4.index t (2 : Fin 3) = (i 2).val / 128 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 128 ≤ (i 2).val ∧ (i 2).val < win1_4.index t (2 : Fin 3) * 128 + 128; omega

/-- The attention output after the region. -/
theorem headsArr (c : Dev nD) :
    (dat1 (F := Ideal) V c).arrAt 4 cfg1.N = heads (V c main_v16) (V c main_v17) (V c main_v18) (V c main_arg1) :=
  (dat1 (F := Ideal) V c).arrAt_eq_of_cover 4 (heads (V c main_v16) (V c main_v17) (V c main_v18) (V c main_arg1))
    (fun t _ => flushed_eq V c t) cover

end Cert.KernelIdeal.Region1

end
-- ==== Proof.Region2.lean ====
/-
  The third region (the output projection), read as values: grid point t takes rows 512t … of the attention rows,
  multiplies them into the whole transposed output weight and adds the bias along the rows. The eight row blocks tile
  the result, which ends as ONE function of the arrays the region was entered with (`Cert.MHA.outRows`).
-/
import proofs.«413744_j12515534701302_3_alg».proof.Proof.Gen.KernelIdeal.Frame
import proofs.«413744_j12515534701302_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.MHA
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The product's operand indices: the left operand is read at (row, k), the right at (k, column) -/

theorem lhs_prod_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_prod_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_prod_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_prod_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator, at row `p` and column `q`: the 1024-term sum. -/
theorem prod_apply (a : FVec Ideal S512x1024 .bf16) (b : FVec Ideal S1024x1024 .bf16) (p : Fin 512) (q : Fin 1024) :
    FloatOps.matmul dot_S512x1024_S1024x1024_S512x1024_1_0_0_1_n_n none a b (constant (F := Ideal) S512x1024 .f32 0x00000000#32) (ix2 p q)
      = ∑ k : Fin 1024, a (ix2 p k) * b (ix2 k q) := by
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun ax => Fin.ext (by
    match ax with
    | ⟨0, _⟩ => exact lhs_prod_0 _ _
    | ⟨1, _⟩ => exact (lhs_prod_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun ax => Fin.ext (by
    match ax with
    | ⟨0, _⟩ => exact (rhs_prod_0 _ _).trans hk
    | ⟨1, _⟩ => exact rhs_prod_1 _ _)
  rw [el, er]

/-- The body's payload at row `p` and column `q`: the product's sum plus the bias of the column. -/
theorem pay_apply (x0 : Vec Ideal S512x1024 .bf16) (x1 : Vec Ideal S1024x1024 .bf16) (x2 : Vec Ideal S1024 .f32)
    (p : Fin 512) (q : Fin 1024) :
    k2_pay1 (F := Ideal) x0 x1 x2 (ix2 p q) = (∑ k : Fin 1024, x0 (ix2 p k) * x1 (ix2 k q)) + x2 (ix1 q) := by
  unfold k2_pay1
  rw [addf_apply, shapeCast_self, shapeCast_self]
  refine congrArg₂ (· + ·) (prod_apply x0 x1 p q) ?_
  exact (broadcastTo_1b_ab_apply _ _ p q).trans (shapeCast_a_1a_apply x2 _ 0 q)

/-! ## Every grid point's block of the result is that block of `outRows` -/

theorem hz2 : (![0, 0] : Fin 2 → Nat) = fun _ => 0 := funext fun a => by fin_cases a <;> rfl
theorem hz1 : (![0] : Fin 1 → Nat) = fun _ => 0 := funext fun a => by fin_cases a; rfl

/-- The printed index maps, decided once over the eight points: the rows' window moves with the result's along the
    rows, the weight's and the bias's windows stay at the origin, and the result's row block is the point itself. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) ≤ 7
    ∧ win2_3.index t (1 : Fin 2) = 0 :=
  (by decide +kernel : ∀ t : Fin grid2.N, _)

/-- Every row block is SOME point's. -/
theorem idx_onto : ∀ (q0 : Fin 8), ∃ t : Fin cfg2.N, win2_3.index t = ![q0.val, 0] :=
  (by decide +kernel : ∀ (q0 : Fin 8), ∃ t : Fin grid2.N, win2_3.index t = ![q0.val, 0])

/-- `outRows` at an index. -/
theorem outRows_apply (A : Srows.Idx → EReal) (Wt : SWo.Idx → EReal) (B : Sbo.Idx → EReal) (i : Srows.Idx) :
    outRows A Wt B i = (∑ d : Fin 1024, A (ix2 (i 0) d) * Wt (ix2 d (i 1))) + B (ix1 (i 1)) := rfl

/-- WHAT POINT `t` WRITES BACK is block `t` of `outRows` of the arrays as the region finds them. -/
theorem flushed_eq (c : Dev nD) (t : Fin cfg2.N) :
    (dat2 (F := Ideal) V c).flushed 3 t
      = ((cfg2.win 3).blk t).view.read (Elt Ideal) (outRows (V c main_v20) (V c main_v13) (V c main_arg5)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1024) hz1]
  obtain ⟨e0, e1, e2, e3, e4, e5, e6⟩ := idx_facts t
  funext j
  obtain ⟨p, q, rfl⟩ : ∃ (p : Fin 512) (q : Fin 1024), j = ix2 p q := ⟨j 0, j 1, eq_ix2 j⟩
  show k2_pay1 (F := Ideal) (iblk2 V c 0 t) (iblk2 V c 1 t) (iblk2 V c 2 t) (ix2 p q)
    = outRows (V c main_v20) (V c main_v13) (V c main_arg5) (((cfg2.win 3).blk t).view.emb (ix2 p q))
  refine (pay_apply _ _ _ p q).trans ?_
  refine Eq.trans ?_ (outRows_apply _ _ _ _).symm
  refine congrArg₂ (· + ·) (Finset.sum_congr rfl fun k _ => congrArg₂ (· * ·) ?_ ?_) ?_
  · -- the rows' block: row 512·(block) + p, column k
    show V c main_v20 (((cfg2.win 0).blk t).view.emb (ix2 p k)) = V c main_v20 (ix2 ((((cfg2.win 3).blk t).view.emb (ix2 p q)) 0) k)
    refine congrArg (V c main_v20) (funext fun a => Fin.ext ?_)
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  · -- the weight, whole: row k, column q
    show V c main_v13 (((cfg2.win 1).blk t).view.emb (ix2 k q)) = V c main_v13 (ix2 k ((((cfg2.win 3).blk t).view.emb (ix2 p q)) 1))
    refine congrArg (V c main_v13) (funext fun a => Fin.ext ?_)
    match a with
    | ⟨0, _⟩ => show win2_1.index t (0 : Fin 2) * 1024 + 1 * k.val = k.val; omega
    | ⟨1, _⟩ => show win2_1.index t (1 : Fin 2) * 1024 + 1 * q.val = win2_3.index t (1 : Fin 2) * 1024 + 1 * q.val; omega
  · -- the bias, whole: entry q
    show V c main_arg5 (((cfg2.win 2).blk t).view.emb (ix1 q)) = V c main_arg5 (ix1 ((((cfg2.win 3).blk t).view.emb (ix2 p q)) 1))
    refine congrArg (V c main_arg5) (funext fun a => Fin.ext ?_)
    match a with
    | ⟨0, _⟩ => show win2_2.index t (0 : Fin 1) * 1024 + 1 * q.val = win2_3.index t (1 : Fin 2) * 1024 + 1 * q.val; omega

/-! ## The eight row blocks cover the array -/

/-- An index of the array is in point `t`'s block iff each coordinate is in the block's range on its axis. -/
theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v21).slice (win2_3.rect t)).set ↔ _
  rw [View.set_slice_whole, Rect.mem_set_unit]
  exact Iff.rfl

/-- Row `r` lies in the block of the point whose row block is `r / 512`. -/
theorem cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The projected rows after the region. -/
theorem outArr (c : Dev nD) :
    (dat2 (F := Ideal) V c).arrAt 3 cfg2.N = outRows (V c main_v20) (V c main_v13) (V c main_arg5) :=
  (dat2 V c).arrAt_eq_of_cover 3 (outRows (V c main_v20) (V c main_v13) (V c main_arg5)) (fun t _ => flushed_eq V c t) cover

end Cert.KernelIdeal.Region2

end
-- ==== Proof.Chain.lean ====
/-
  The kernel program's result as ONE function of its six arguments: the fold of @main's stretches and regions, read
  back from the result buffer to the launch memory. The result is the third region's rows reshaped; those are
  `outRows` of the second region's output flattened, the transposed output weight and its bias; the second region's
  output is `heads` of the three slabs (reshaped) and the mask; each slab is `slab` of the flattened input, the
  regrouped transposed weight and the regrouped bias. Substituting, and undoing the regrouping by `perm`, every entry is
  `Cert.MHA.outK` of the arguments: row 2048 b + s of a flattened array is row (b, s); column c' of slab o is column
  `perm (1024 o + c')` of the fused projection, which for the columns of one head is that head's query, key or value
  column.
-/
import proofs.«413744_j12515534701302_3_alg».proof.Proof.Gen.KernelIdeal.Frame
import proofs.«413744_j12515534701302_3_alg».proof.Proof.Spec
import proofs.«413744_j12515534701302_3_alg».proof.Proof.Host0
import proofs.«413744_j12515534701302_3_alg».proof.Proof.Region0
import proofs.«413744_j12515534701302_3_alg».proof.Proof.Region1
import proofs.«413744_j12515534701302_3_alg».proof.Proof.Region2
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Chain

open Cert.KernelIdeal Cert.KernelIdeal.Gen Cert.MHA
open Idealize.ShloMosaic Idealize.ShloMosaic.TcCoe Idealize.ShloMosaic.ValueIdx Idealize.SL.Sem

/-! ## Two reshapes read at an index -/

/-- [4096, 1024] read as [2, 2048, 1024]: entry (b, s, e) is entry (2048 b + s, e). -/
theorem rows_as_3d {α : Type} (f : Srows.Idx → α) (h : Srows.ShapeCasts Sx) (b : Fin 2) (s : Fin 2048) (e : Fin 1024) :
    shapeCast Sx f h (ix3 b s e) = f (ix2 (⟨2048 * b.val + s.val, by have := b.isLt; have := s.isLt; omega⟩ : Fin 4096) e) := by
  refine shapeCast_apply f h _ _ ?_
  rw [Shape.rowMajor_val_two, Shape.rowMajor_val_three]
  show (2048 * b.val + s.val) * 1024 + e.val = (b.val * 2048 + s.val) * 1024 + e.val
  omega

/-- [2, 2048, 1024] read as [4096, 1024]: entry (2048 b + s, d) is entry (b, s, d). -/
theorem d3_as_rows {α : Type} (g : Sx.Idx → α) (h : Sx.ShapeCasts Srows) (b : Fin 2) (s : Fin 2048) (d : Fin 1024) :
    shapeCast Srows g h (ix2 (⟨2048 * b.val + s.val, by have := b.isLt; have := s.isLt; omega⟩ : Fin 4096) d) = g (ix3 b s d) := by
  refine shapeCast_apply g h _ _ ?_
  rw [Shape.rowMajor_val_two, Shape.rowMajor_val_three]
  show (b.val * 2048 + s.val) * 1024 + d.val = (2048 * b.val + s.val) * 1024 + d.val
  omega

variable (m : (ℓ : Loc nD τ sig) → Buf (Elt Ideal) ℓ) (ρ : Dev nD → PrngReg)

/-! ## The boundaries of @main, one buffer at a time -/

/-- The result is the third region's rows, reshaped. -/
theorem W7_v22 (c : Dev nD) : W7 m ρ c (Proc.devRef .tc main_v22)
    = shapeCast _ (W6 m ρ c (Proc.devRef .tc main_v21)) shapeCasts_S4096x1024_S2x2048x1024 := by
  show StableHlo.after hostOps3 (W6 m ρ c) (Proc.devRef .tc main_v22) = _
  after_results
  rfl

/-- The third region's first operand is the second region's output, flattened. -/
theorem W5_v20 (c : Dev nD) : W5 m ρ c (Proc.devRef .tc main_v20)
    = shapeCast _ (W4 m ρ c (Proc.devRef .tc main_v19)) shapeCasts_S2x2048x1024_S4096x1024 := by
  show StableHlo.after hostOps2 (W4 m ρ c) (Proc.devRef .tc main_v20) = _
  after_results
  rfl

/-- The second region's query, key and value operands are the first region's slabs, reshaped. -/
theorem W3_v16 (c : Dev nD) : W3 m ρ c (Proc.devRef .tc main_v16)
    = shapeCast _ (W2 m ρ c (Proc.devRef .tc main_v15_0)) shapeCasts_S4096x1024_S2x2048x1024 := by
  show StableHlo.after hostOps1 (W2 m ρ c) (Proc.devRef .tc main_v16) = _
  after_results
  rfl
theorem W3_v17 (c : Dev nD) : W3 m ρ c (Proc.devRef .tc main_v17)
    = shapeCast _ (W2 m ρ c (Proc.devRef .tc main_v15_1)) shapeCasts_S4096x1024_S2x2048x1024 := by
  show StableHlo.after hostOps1 (W2 m ρ c) (Proc.devRef .tc main_v17) = _
  after_results
  rfl
theorem W3_v18 (c : Dev nD) : W3 m ρ c (Proc.devRef .tc main_v18)
    = shapeCast _ (W2 m ρ c (Proc.devRef .tc main_v15_2)) shapeCasts_S4096x1024_S2x2048x1024 := by
  show StableHlo.after hostOps1 (W2 m ρ c) (Proc.devRef .tc main_v18) = _
  after_results
  rfl

/-- A stretch of reshapes leaves a buffer it does not write as it found it. -/
theorem hostOps1_keeps (W : Valuation τ sig (Elt Ideal)) (b : Ref sig .tc)
    (h16 : main_v16 ≠ b) (h17 : main_v17 ≠ b) (h18 : main_v18 ≠ b) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h16.symm, StableHlo.devRef_ne_of_ne h17.symm, StableHlo.devRef_ne_of_ne h18.symm⟩))

theorem hostOps2_keeps (W : Valuation τ sig (Elt Ideal)) (b : Ref sig .tc) (h20 : main_v20 ≠ b) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h20.symm))

/-- The first stretch writes neither the mask nor the output bias. -/
theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans rfl
theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans rfl

/-- The transposed output weight reaches the third region as the first stretch left it. -/
theorem V5_v13 (c : Dev nD) : V5 m ρ c main_v13 = V1 m ρ c main_v13 :=
  calc W5 m ρ c (Proc.devRef .tc main_v13)
    _ = W4 m ρ c (Proc.devRef .tc main_v13) := hostOps2_keeps _ main_v13 (by decide)
    _ = W3 m ρ c (Proc.devRef .tc main_v13) := W4_of_ne m ρ c main_v13 (by decide)
    _ = W2 m ρ c (Proc.devRef .tc main_v13) := hostOps1_keeps _ main_v13 (by decide) (by decide) (by decide)
    _ = W1 m ρ c (Proc.devRef .tc main_v13) := W2_of_ne m ρ c main_v13 (by decide)

/-- The output bias reaches the third region as launched. -/
theorem V5_arg5 (c : Dev nD) : V5 m ρ c main_arg5 = m ((c : Thread nD τ).loc main_arg5) :=
  calc W5 m ρ c (Proc.devRef .tc main_arg5)
    _ = W4 m ρ c (Proc.devRef .tc main_arg5) := hostOps2_keeps _ main_arg5 (by decide)
    _ = W3 m ρ c (Proc.devRef .tc main_arg5) := W4_of_ne m ρ c main_arg5 (by decide)
    _ = W2 m ρ c (Proc.devRef .tc main_arg5) := hostOps1_keeps _ main_arg5 (by decide) (by decide) (by decide)
    _ = W1 m ρ c (Proc.devRef .tc main_arg5) := W2_of_ne m ρ c main_arg5 (by decide)
    _ = m ((c : Thread nD τ).loc main_arg5) := W1_arg5 m ρ c

/-- The mask reaches the second region as launched. -/
theorem V3_arg1 (c : Dev nD) : V3 m ρ c main_arg1 = m ((c : Thread nD τ).loc main_arg1) :=
  calc W3 m ρ c (Proc.devRef .tc main_arg1)
    _ = W2 m ρ c (Proc.devRef .tc main_arg1) := hostOps1_keeps _ main_arg1 (by decide) (by decide) (by decide)
    _ = W1 m ρ c (Proc.devRef .tc main_arg1) := W2_of_ne m ρ c main_arg1 (by decide)
    _ = m ((c : Thread nD τ).loc main_arg1) := W1_arg1 m ρ c

/-! ## The boundary arrays, each named at its literal type -/

/-- The six arguments as launched. -/
abbrev aX (c : Dev nD) : Sx.Idx → EReal := m ((c : Thread nD τ).loc main_arg0)
abbrev aM (c : Dev nD) : Smask.Idx → EReal := m ((c : Thread nD τ).loc main_arg1)
abbrev aWq (c : Dev nD) : SWq.Idx → EReal := m ((c : Thread nD τ).loc main_arg2)
abbrev aBq (c : Dev nD) : Sbq.Idx → EReal := m ((c : Thread nD τ).loc main_arg3)
abbrev aWo (c : Dev nD) : SWo.Idx → EReal := m ((c : Thread nD τ).loc main_arg4)
abbrev aBo (c : Dev nD) : Sbo.Idx → EReal := m ((c : Thread nD τ).loc main_arg5)
/-- What the first region is entered with. -/
abbrev xrows (c : Dev nD) : Srows.Idx → EReal := V1 m ρ c main_v14
abbrev wt (c : Dev nD) : SWt.Idx → EReal := V1 m ρ c main_v11
abbrev bg (c : Dev nD) : Sbq.Idx → EReal := V1 m ρ c main_v9
abbrev woT (c : Dev nD) : SWo.Idx → EReal := V1 m ρ c main_v13
/-- What the second region is entered with. -/
abbrev qs (c : Dev nD) : Sx.Idx → EReal := V3 m ρ c main_v16
abbrev ks (c : Dev nD) : Sx.Idx → EReal := V3 m ρ c main_v17
abbrev vs (c : Dev nD) : Sx.Idx → EReal := V3 m ρ c main_v18
abbrev mk3 (c : Dev nD) : Smask.Idx → EReal := V3 m ρ c main_arg1
/-- What the third region is entered with. -/
abbrev att (c : Dev nD) : Srows.Idx → EReal := V5 m ρ c main_v20
abbrev woT5 (c : Dev nD) : SWo.Idx → EReal := V5 m ρ c main_v13
abbrev bo5 (c : Dev nD) : Sbo.Idx → EReal := V5 m ρ c main_arg5

/-! ## The regions' arrays, each from the arrays of the boundary before it -/

/-- The third region's first operand: the heads of the reshaped slabs and the mask, flattened. -/
theorem att_eq (c : Dev nD) : att m ρ c
    = shapeCast Srows (heads (qs m ρ c) (ks m ρ c) (vs m ρ c) (mk3 m ρ c)) shapeCasts_S2x2048x1024_S4096x1024 :=
  (W5_v20 m ρ c).trans (congrArg (fun (a : Sx.Idx → EReal) => shapeCast Srows a shapeCasts_S2x2048x1024_S4096x1024)
    ((W4_arr m ρ c 4).trans (Region1.headsArr (V3 m ρ) c)))

/-- The query, key and value operands of the second region: the first region's slabs, reshaped. -/
theorem qs_eq (c : Dev nD) : qs m ρ c
    = shapeCast Sx (slab 0 (xrows m ρ c) (wt m ρ c) (bg m ρ c)) shapeCasts_S4096x1024_S2x2048x1024 :=
  (W3_v16 m ρ c).trans (congrArg (fun (a : Srows.Idx → EReal) => shapeCast Sx a shapeCasts_S4096x1024_S2x2048x1024)
    ((W2_arr m ρ c 3).trans (Region0.slabQ (V1 m ρ) c)))
theorem ks_eq (c : Dev nD) : ks m ρ c
    = shapeCast Sx (slab 1 (xrows m ρ c) (wt m ρ c) (bg m ρ c)) shapeCasts_S4096x1024_S2x2048x1024 :=
  (W3_v17 m ρ c).trans (congrArg (fun (a : Srows.Idx → EReal) => shapeCast Sx a shapeCasts_S4096x1024_S2x2048x1024)
    ((W2_arr m ρ c 4).trans (Region0.slabK (V1 m ρ) c)))
theorem vs_eq (c : Dev nD) : vs m ρ c
    = shapeCast Sx (slab 2 (xrows m ρ c) (wt m ρ c) (bg m ρ c)) shapeCasts_S4096x1024_S2x2048x1024 :=
  (W3_v18 m ρ c).trans (congrArg (fun (a : Srows.Idx → EReal) => shapeCast Sx a shapeCasts_S4096x1024_S2x2048x1024)
    ((W2_arr m ρ c 5).trans (Region0.slabV (V1 m ρ) c)))

theorem mk3_eq (c : Dev nD) : mk3 m ρ c = aM m c := V3_arg1 m ρ c
theorem woT5_eq (c : Dev nD) : woT5 m ρ c = woT m ρ c := V5_v13 m ρ c
theorem bo5_eq (c : Dev nD) : bo5 m ρ c = aBo m c := V5_arg5 m ρ c

/-- The result: the output rows of the flattened heads, reshaped. -/
theorem W7_result (c : Dev nD) : W7 m ρ c (Proc.devRef .tc main_v22)
    = shapeCast Sx (outRows (att m ρ c) (woT5 m ρ c) (bo5 m ρ c)) shapeCasts_S4096x1024_S2x2048x1024 :=
  (W7_v22 m ρ c).trans (congrArg (fun (a : Srows.Idx → EReal) => shapeCast Sx a shapeCasts_S4096x1024_S2x2048x1024)
    ((W6_arr m ρ c 3).trans (Region2.outArr (V5 m ρ) c)))

/-! ## The first region's operands at an entry -/

theorem rows_entry (c : Dev nD) (b : Fin 2) (s : Fin 2048) (d : Fin 1024) :
    xrows m ρ c (ix2 (⟨2048 * b.val + s.val, by have := b.isLt; have := s.isLt; omega⟩ : Fin 4096) d)
      = aX m c (ix3 b s d) := by
  refine (congrFun (Host0.entry_rows m ρ c) _).trans (congrArg (aX m c) ?_)
  funext a
  match a with
  | ⟨0, _⟩ => exact Fin.ext (by show (2048 * b.val + s.val) / 2048 = b.val; have := s.isLt; omega)
  | ⟨1, _⟩ => exact Fin.ext (by show (2048 * b.val + s.val) % 2048 = s.val; have := s.isLt; omega)
  | ⟨2, _⟩ => rfl

theorem wt_entry (c : Dev nD) (d : Fin 1024) (e : Fin 3072) : wt m ρ c (ix2 d e) = aWq m c (ix2 (perm e) d) :=
  congrFun (Host0.entry_Wt m ρ c) _

theorem bg_entry (c : Dev nD) (e : Fin 3072) : bg m ρ c (ix1 e) = aBq m c (ix1 (perm e)) :=
  congrFun (Host0.entry_bias m ρ c) _

theorem woT_entry (c : Dev nD) (d e : Fin 1024) : woT m ρ c (ix2 d e) = aWo m c (ix2 e d) :=
  congrFun (Host0.entry_WoT m ρ c) _

/-- Entry (b, s, c') of slab o, reshaped, is the fused projection at column perm (1024 o + c'). -/
theorem slab_entry (c : Dev nD) (o : Fin 3) (b : Fin 2) (s : Fin 2048) (c' : Fin 1024)
    (hE : 1024 * o.val + c'.val < 3072) :
    shapeCast Sx (slab o (xrows m ρ c) (wt m ρ c) (bg m ρ c)) shapeCasts_S4096x1024_S2x2048x1024 (ix3 b s c')
      = proj (aX m c) (aWq m c) (aBq m c) b s (perm ⟨1024 * o.val + c'.val, hE⟩) := by
  rw [rows_as_3d]
  show (∑ d : Fin 1024, xrows m ρ c (ix2 (⟨2048 * b.val + s.val, by have := b.isLt; have := s.isLt; omega⟩ : Fin 4096) d)
        * wt m ρ c (ix2 d ⟨1024 * o.val + c'.val, hE⟩)) + bg m ρ c (ix1 ⟨1024 * o.val + c'.val, hE⟩) = _
  rw [bg_entry]
  refine congrArg (· + _) (Finset.sum_congr rfl fun d _ => ?_)
  rw [rows_entry, wt_entry]

/-! ## The result, entry by entry -/

/-- The result, over the named arrays. -/
theorem result_entry (c : Dev nD) (b : Fin 2) (s : Fin 2048) (e : Fin 1024) :
    shapeCast Sx (outRows (att m ρ c) (woT5 m ρ c) (bo5 m ρ c)) shapeCasts_S4096x1024_S2x2048x1024 (ix3 b s e)
      = outK (aX m c) (aM m c) (aWq m c) (aBq m c) (aWo m c) (aBo m c) (ix3 b s e) := by
  rw [rows_as_3d]
  show (∑ d : Fin 1024, att m ρ c (ix2 (⟨2048 * b.val + s.val, by have := b.isLt; have := s.isLt; omega⟩ : Fin 4096) d)
        * woT5 m ρ c (ix2 d e)) + bo5 m ρ c (ix1 e)
      = (∑ d : Fin 1024, attK (aX m c) (aM m c) (aWq m c) (aBq m c) b s d * aWo m c (ix2 e d)) + aBo m c (ix1 e)
  rw [woT5_eq, bo5_eq]
  refine congrArg (· + _) (Finset.sum_congr rfl fun d _ => ?_)
  rw [woT_entry, att_eq, d3_as_rows]
  refine congrArg (· * _) ?_
  show kAttn (fun d' => qs m ρ c (ix3 b s (hcol d d'))) (fun t d' => ks m ρ c (ix3 b t (hcol d d')))
      (fun t => vs m ρ c (ix3 b t d)) (fun t => mk3 m ρ c (ix2 s t)) = _
  have hd : d.val < 1024 := d.isLt
  have hq : (fun d' : Fin 64 => qs m ρ c (ix3 b s (hcol d d')))
      = fun d' => proj (aX m c) (aWq m c) (aBq m c) b s (eQ d d') := by
    funext d'
    rw [qs_eq, slab_entry m ρ c 0 b s (hcol d d') (by have := (hcol d d').isLt; show 1024 * 0 + _ < 3072; omega), ← perm_q]
    exact congrArg _ (congrArg perm (Fin.ext (by show 1024 * 0 + (hcol d d').val = (hcol d d').val; omega)))
  have hk : (fun (t : Fin 2048) (d' : Fin 64) => ks m ρ c (ix3 b t (hcol d d')))
      = fun t d' => proj (aX m c) (aWq m c) (aBq m c) b t (eK d d') := by
    funext t d'
    rw [ks_eq, slab_entry m ρ c 1 b t (hcol d d') (by have := (hcol d d').isLt; show 1024 * 1 + _ < 3072; omega), ← perm_k]
    exact congrArg _ (congrArg perm (Fin.ext (by show 1024 * 1 + (hcol d d').val = 1024 + (hcol d d').val; omega)))
  have hv : (fun t : Fin 2048 => vs m ρ c (ix3 b t d))
      = fun t => proj (aX m c) (aWq m c) (aBq m c) b t (eV d) := by
    funext t
    rw [vs_eq, slab_entry m ρ c 2 b t d (by show 1024 * 2 + _ < 3072; omega), ← perm_v]
    exact congrArg _ (congrArg perm (Fin.ext (by show 1024 * 2 + d.val = 2048 + d.val; omega)))
  rw [hq, hk, hv, mk3_eq]
  rfl

/-- The result buffer at the last boundary is `outK` of the launch contents of the six arguments. -/
theorem result_eq (c : Dev nD) :
    W7 m ρ c (Proc.devRef .tc main_v22)
      = outK (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [W7_result]
  funext i
  obtain ⟨b, s, e, rfl⟩ : ∃ (b : Fin 2) (s : Fin 2048) (e : Fin 1024), i = ix3 b s e := ⟨i 0, i 1, i 2, eq_ix3 i⟩
  exact result_entry m ρ c b s e

end Cert.KernelIdeal.Chain

end
-- ==== Proof.RefValue.lean ====
/-
  The reference's result, read at an index: the composed term of its 38 host operations is, entry by entry, the
  output projection of the heads in the reference's order (`Cert.MHA.outR`): the fused projection reshaped into heads
  and sliced into queries, keys and values; the logits divided by sqrt 64 with the mask added; the softmax along the
  keys (row maximum, exponentials, their sum, the quotient); the weighted sum of the values; the heads laid back side
  by side; the output projection.
-/
import proofs.«413744_j12515534701302_3_alg».proof.Proof.Gen.ReferenceIdeal.Read
import proofs.«413744_j12515534701302_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Cert.ReferenceIdeal.Read Cert.MHA
open Idealize.ShloMosaic Idealize.ShloMosaic.TcCoe Idealize.ShloMosaic.ValueIdx Idealize.SL.Sem

/-! ## The heads' columns of the fused projection -/

/-- Column of coordinate `d` of the query of head `h`. -/
private def cQ (h : Fin 16) (d : Fin 64) : Fin 3072 := ⟨192 * h.val + d.val, by have := h.isLt; have := d.isLt; omega⟩
/-- Column of coordinate `d` of the key of head `h`. -/
private def cK (h : Fin 16) (d : Fin 64) : Fin 3072 := ⟨192 * h.val + 64 + d.val, by have := h.isLt; have := d.isLt; omega⟩
/-- Column of coordinate `d` of the value of head `h`. -/
private def cV (h : Fin 16) (d : Fin 64) : Fin 3072 := ⟨192 * h.val + 128 + d.val, by have := h.isLt; have := d.isLt; omega⟩

variable (x0 : (⟨S2x2048x1024, .f32⟩ : BufTy).Contents (Elt Ideal)) (x1 : (⟨S2048x2048, .f32⟩ : BufTy).Contents (Elt Ideal))
  (x2 : (⟨S3072x1024, .f32⟩ : BufTy).Contents (Elt Ideal)) (x3 : (⟨S3072, .f32⟩ : BufTy).Contents (Elt Ideal))
  (x4 : (⟨S1024x1024, .f32⟩ : BufTy).Contents (Elt Ideal)) (x5 : (⟨S1024, .f32⟩ : BufTy).Contents (Elt Ideal))

/-- The biased product at (b, s, e) is the fused projection's entry. -/
private theorem v3_ix (b : Fin 2) (s : Fin 2048) (e : Fin 3072) :
    val_main_v3 (F := Ideal) x0 x2 x3 (ix3 b s e) = proj x0 x2 x3 b s e := by
  rw [val_main_v3_apply, val_main_v0_apply, val_main_v2_apply, val_main_v1_apply, Ideal.addf_def]
  unfold proj
  refine congrArg₂ (· + ·) (Finset.sum_congr rfl fun k _ => congrArg₂ (· * ·) (congrArg x0 ?_) (congrArg x2 ?_)) (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The head-split index (b, h, s, j) of the transposed reshape reads the projection at column 192h + j. -/
private theorem v5_ix (b : Fin 2) (h : Fin 16) (s : Fin 2048) (j : Fin 192) :
    val_main_v5 (F := Ideal) x0 x2 x3 (ix4 b h s j)
      = proj x0 x2 x3 b s ⟨192 * h.val + j.val, by have := h.isLt; have := j.isLt; omega⟩ := by
  rw [val_main_v5_apply, val_main_v4_apply, ← v3_ix]
  refine congrArg _ (funext fun a => Fin.ext ?_)
  have hb := b.isLt; have hh := h.isLt; have hs := s.isLt; have hj := j.isLt
  match a with
  | ⟨0, _⟩ => show (((b.val * 2048 + s.val) * 16 + h.val) * 192 + j.val) / 6291456 = b.val; omega
  | ⟨1, _⟩ => show (((b.val * 2048 + s.val) * 16 + h.val) * 192 + j.val) / 3072 % 2048 = s.val; omega
  | ⟨2, _⟩ => show (((b.val * 2048 + s.val) * 16 + h.val) * 192 + j.val) % 3072 = 192 * h.val + j.val; omega

private theorem v6_ix (b : Fin 2) (h : Fin 16) (s : Fin 2048) (d : Fin 64) :
    val_main_v6 (F := Ideal) x0 x2 x3 (ix4 b h s d) = proj x0 x2 x3 b s (cQ h d) := by
  rw [val_main_v6_apply]
  have e : idx_main_v6 (ix4 b h s d) = ix4 b h s (⟨d.val, by have := d.isLt; omega⟩ : Fin 192) :=
    funext fun a => Fin.ext (by match a with | ⟨0, _⟩ => rfl | ⟨1, _⟩ => rfl | ⟨2, _⟩ => rfl | ⟨3, _⟩ => rfl)
  rw [e, v5_ix]
  rfl

private theorem v7_ix (b : Fin 2) (h : Fin 16) (s : Fin 2048) (d : Fin 64) :
    val_main_v7 (F := Ideal) x0 x2 x3 (ix4 b h s d) = proj x0 x2 x3 b s (cK h d) := by
  rw [val_main_v7_apply]
  have e : idx_main_v7 (ix4 b h s d) = ix4 b h s (⟨64 + d.val, by have := d.isLt; omega⟩ : Fin 192) :=
    funext fun a => Fin.ext (by match a with | ⟨0, _⟩ => rfl | ⟨1, _⟩ => rfl | ⟨2, _⟩ => rfl | ⟨3, _⟩ => rfl)
  rw [e, v5_ix]
  exact congrArg _ (Fin.ext (by show 192 * h.val + (64 + d.val) = 192 * h.val + 64 + d.val; omega))

private theorem v8_ix (b : Fin 2) (h : Fin 16) (s : Fin 2048) (d : Fin 64) :
    val_main_v8 (F := Ideal) x0 x2 x3 (ix4 b h s d) = proj x0 x2 x3 b s (cV h d) := by
  rw [val_main_v8_apply]
  have e : idx_main_v8 (ix4 b h s d) = ix4 b h s (⟨128 + d.val, by have := d.isLt; omega⟩ : Fin 192) :=
    funext fun a => Fin.ext (by match a with | ⟨0, _⟩ => rfl | ⟨1, _⟩ => rfl | ⟨2, _⟩ => rfl | ⟨3, _⟩ => rfl)
  rw [e, v5_ix]
  exact congrArg _ (Fin.ext (by show 192 * h.val + (128 + d.val) = 192 * h.val + 128 + d.val; omega))

/-! ## One head at one query row: its query, its keys, its mask row -/

/-- The query row of head `h` at (b, s). -/
private def hq (b : Fin 2) (h : Fin 16) (s : Fin 2048) : Fin 64 → EReal := fun d => proj x0 x2 x3 b s (cQ h d)
/-- The key rows of head `h` in batch `b`. -/
private def hk (b : Fin 2) (h : Fin 16) : Fin 2048 → Fin 64 → EReal := fun t d => proj x0 x2 x3 b t (cK h d)
/-- The mask row of query position `s`. -/
private def hm (s : Fin 2048) : Fin 2048 → EReal := fun t => x1 (ix2 s t)

/-- The masked, scaled logit at (b, h, s, t). -/
private theorem v15_ix (b : Fin 2) (h : Fin 16) (s t : Fin 2048) :
    val_main_v15 (F := Ideal) x0 x1 x2 x3 (ix4 b h s t) = rScore (hq x0 x2 x3 b h s) (hk x0 x2 x3 b h) (hm x1 s) t := by
  rw [val_main_v15_apply, val_main_v12_apply, val_main_v9_apply, val_main_v11_apply, val_main_v10_apply,
    val_main_cst_apply, val_main_v14_apply, val_main_v13_apply]
  simp only [Ideal.addf_def, Ideal.hostDivf_def, Ideal.hostUnary_sqrt_def, Ideal.ofBits_def]
  unfold rScore hq hk hm
  refine congrArg₂ (· + ·) (congrArg₂ Ideal.div (Finset.sum_congr rfl fun d _ => ?_) rfl) (congrArg x1 ?_)
  · have e1 : lidx_main_v9 (ix4 b h s t) d = ix4 b h s d :=
      funext fun a => Fin.ext (by match a with | ⟨0, _⟩ => rfl | ⟨1, _⟩ => rfl | ⟨2, _⟩ => rfl | ⟨3, _⟩ => rfl)
    have e2 : ridx_main_v9 (ix4 b h s t) d = ix4 b h t d :=
      funext fun a => Fin.ext (by match a with | ⟨0, _⟩ => rfl | ⟨1, _⟩ => rfl | ⟨2, _⟩ => rfl | ⟨3, _⟩ => rfl)
    rw [e1, e2, v6_ix, v7_ix]
  · exact funext fun a => Fin.ext (by match a with | ⟨0, _⟩ => rfl | ⟨1, _⟩ => rfl)

/-- The row maximum's fold at (b, h, s). -/
private theorem v16_ix (b : Fin 2) (h : Fin 16) (s : Fin 2048) :
    val_main_v16 (F := Ideal) x0 x1 x2 x3 (ix3 b h s)
      = Finset.univ.fold max ninf (rScore (hq x0 x2 x3 b h s) (hk x0 x2 x3 b h) (hm x1 s)) := by
  have hR : S2x16x2048x2048.Reduces [3] S2x16x2048 := by decide
  unfold val_main_v16
  rw [Host.reduce_eq_fold_single FloatOps.maximumf _ _ reducesTo_S2x16x2048x2048_S2x16x2048_d3 hR h_S_]
  have hf : (val_main_v15 (F := Ideal) x0 x1 x2 x3 ∘ hR.lift (ix3 b h s))
      = rScore (hq x0 x2 x3 b h s) (hk x0 x2 x3 b h) (hm x1 s) := by
    funext t
    exact Eq.trans
      (congrArg (val_main_v15 (F := Ideal) x0 x1 x2 x3) (funext fun a => Fin.ext (by
        match a with | ⟨0, _⟩ => rfl | ⟨1, _⟩ => rfl | ⟨2, _⟩ => rfl | ⟨3, _⟩ => rfl)))
      (v15_ix x0 x1 x2 x3 b h s (t : Fin 2048))
  rw [hf]
  rfl

private theorem v18_ix (b : Fin 2) (h : Fin 16) (s : Fin 2048) :
    val_main_v18 (F := Ideal) x0 x1 x2 x3 (ix3 b h s) = rMax (hq x0 x2 x3 b h s) (hk x0 x2 x3 b h) (hm x1 s) := by
  rw [val_main_v18_apply, val_main_v17_apply, val_main_cst_1_apply, v16_ix]
  rfl

private theorem v20_ix (b : Fin 2) (h : Fin 16) (s t : Fin 2048) :
    val_main_v20 (F := Ideal) x0 x1 x2 x3 (ix4 b h s t) = rMax (hq x0 x2 x3 b h s) (hk x0 x2 x3 b h) (hm x1 s) := by
  rw [val_main_v20_apply, val_main_v19_apply, ← v18_ix]
  exact congrArg _ (funext fun a => Fin.ext (by match a with | ⟨0, _⟩ => rfl | ⟨1, _⟩ => rfl | ⟨2, _⟩ => rfl))

/-- The exponential of the logit less the row maximum. -/
private theorem v22_ix (b : Fin 2) (h : Fin 16) (s t : Fin 2048) :
    val_main_v22 (F := Ideal) x0 x1 x2 x3 (ix4 b h s t)
      = Ideal.exp (rScore (hq x0 x2 x3 b h s) (hk x0 x2 x3 b h) (hm x1 s) t - rMax (hq x0 x2 x3 b h s) (hk x0 x2 x3 b h) (hm x1 s)) := by
  rw [val_main_v22_apply, val_main_v21_apply, v15_ix, v20_ix]
  rfl

/-- The row sum of the exponentials, from the zero word. -/
private theorem v23_ix (b : Fin 2) (h : Fin 16) (s : Fin 2048) :
    val_main_v23 (F := Ideal) x0 x1 x2 x3 (ix3 b h s)
      = z0 + ∑ u : Fin 2048, Ideal.exp (rScore (hq x0 x2 x3 b h s) (hk x0 x2 x3 b h) (hm x1 s) u - rMax (hq x0 x2 x3 b h s) (hk x0 x2 x3 b h) (hm x1 s)) := by
  rw [val_main_v23_apply, val_main_cst_2_apply]
  refine congrArg₂ (· + ·) rfl (Finset.sum_congr rfl fun u _ => ?_)
  rw [← v22_ix]
  exact congrArg _ (funext fun a => Fin.ext (by match a with | ⟨0, _⟩ => rfl | ⟨1, _⟩ => rfl | ⟨2, _⟩ => rfl | ⟨3, _⟩ => rfl))

/-- The normalised weight at (b, h, s, t). -/
private theorem v26_ix (b : Fin 2) (h : Fin 16) (s t : Fin 2048) :
    val_main_v26 (F := Ideal) x0 x1 x2 x3 (ix4 b h s t)
      = Ideal.div (Ideal.exp (rScore (hq x0 x2 x3 b h s) (hk x0 x2 x3 b h) (hm x1 s) t - rMax (hq x0 x2 x3 b h s) (hk x0 x2 x3 b h) (hm x1 s)))
          (z0 + ∑ u : Fin 2048, Ideal.exp (rScore (hq x0 x2 x3 b h s) (hk x0 x2 x3 b h) (hm x1 s) u - rMax (hq x0 x2 x3 b h s) (hk x0 x2 x3 b h) (hm x1 s))) := by
  rw [val_main_v26_apply, val_main_v25_apply, val_main_v24_apply, v22_ix, Ideal.hostDivf_def, ← v23_ix]
  exact congrArg _ (congrArg _ (funext fun a => Fin.ext (by match a with | ⟨0, _⟩ => rfl | ⟨1, _⟩ => rfl | ⟨2, _⟩ => rfl)))

/-- One entry of one head. -/
private theorem v27_ix (b : Fin 2) (h : Fin 16) (s : Fin 2048) (d : Fin 64) :
    val_main_v27 (F := Ideal) x0 x1 x2 x3 (ix4 b h s d)
      = rAttn (hq x0 x2 x3 b h s) (hk x0 x2 x3 b h) (fun t => proj x0 x2 x3 b t (cV h d)) (hm x1 s) := by
  rw [val_main_v27_apply]
  unfold rAttn
  refine Finset.sum_congr rfl fun t _ => ?_
  have e1 : lidx_main_v27 (ix4 b h s d) t = ix4 b h s t :=
    funext fun a => Fin.ext (by match a with | ⟨0, _⟩ => rfl | ⟨1, _⟩ => rfl | ⟨2, _⟩ => rfl | ⟨3, _⟩ => rfl)
  have e2 : ridx_main_v27 (ix4 b h s d) t = ix4 b h t d :=
    funext fun a => Fin.ext (by match a with | ⟨0, _⟩ => rfl | ⟨1, _⟩ => rfl | ⟨2, _⟩ => rfl | ⟨3, _⟩ => rfl)
  rw [e1, e2, v26_ix, v8_ix]

/-- The heads laid back side by side: column `col` is entry `col % 64` of head `col / 64`. -/
private theorem v29_ix (b : Fin 2) (s : Fin 2048) (col : Fin 1024) :
    val_main_v29 (F := Ideal) x0 x1 x2 x3 (ix3 b s col) = attR x0 x1 x2 x3 b s col := by
  rw [val_main_v29_apply, val_main_v28_apply]
  have hb := b.isLt; have hs := s.isLt; have hc := col.isLt
  have e : idx_main_v28 (idx_main_v29 (ix3 b s col))
      = ix4 b (⟨col.val / 64, by omega⟩ : Fin 16) s (⟨col.val % 64, by omega⟩ : Fin 64) :=
    funext fun a => Fin.ext (by
      match a with
      | ⟨0, _⟩ => show ((b.val * 2048 + s.val) * 1024 + col.val) / 2097152 = b.val; omega
      | ⟨1, _⟩ => show ((b.val * 2048 + s.val) * 1024 + col.val) / 64 % 16 = col.val / 64; omega
      | ⟨2, _⟩ => show ((b.val * 2048 + s.val) * 1024 + col.val) / 1024 % 2048 = s.val; omega
      | ⟨3, _⟩ => show ((b.val * 2048 + s.val) * 1024 + col.val) % 64 = col.val % 64; omega)
  rw [e, v27_ix]
  rfl

/-- The output projection of the heads, entry by entry. -/
private theorem v33_ix (b : Fin 2) (s : Fin 2048) (e : Fin 1024) :
    val_main_v33 (F := Ideal) x0 x1 x2 x3 x4 x5 (ix3 b s e) = outR x0 x1 x2 x3 x4 x5 (ix3 b s e) := by
  rw [val_main_v33_apply, val_main_v30_apply, val_main_v32_apply, val_main_v31_apply, Ideal.addf_def]
  show _ = (∑ d : Fin 1024, attR x0 x1 x2 x3 b s d * x4 (ix2 e d)) + x5 (ix1 e)
  refine congrArg₂ (· + ·) (Finset.sum_congr rfl fun d _ => ?_) (congrArg x5 ?_)
  · have e1 : lidx_main_v30 (ix3 b s e) d = ix3 b s d :=
      funext fun a => Fin.ext (by match a with | ⟨0, _⟩ => rfl | ⟨1, _⟩ => rfl | ⟨2, _⟩ => rfl)
    have e2 : ridx_main_v30 (ix3 b s e) d = ix2 e d :=
      funext fun a => Fin.ext (by match a with | ⟨0, _⟩ => rfl | ⟨1, _⟩ => rfl)
    rw [e1, e2, v29_ix]
  · exact funext fun a => Fin.ext (by match a with | ⟨0, _⟩ => rfl)

/-- The reference run's result term is `outR` of the launch contents of its six arguments. -/
theorem ref_result (m : (ℓ : Loc nD τ sig) → Buf (Elt Ideal) ℓ) (c : Dev nD) :
    Cert.ReferenceIdeal.Value.res_main_v33 (F := Ideal) m c
      = outR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v33_eq]
  funext i
  obtain ⟨b, s, e, rfl⟩ : ∃ (b : Fin 2) (s : Fin 2048) (e : Fin 1024), i = ix3 b s e := ⟨i 0, i 1, i 2, eq_ix3 i⟩
  exact v33_ix _ _ _ _ _ _ b s e

end Cert.ReferenceIdeal.RefValue

end
-- ==== Proof.Finite.lean ====
/-
  The precondition read back: "every float input is finite" is printed as, per input, |a| < +inf entry by entry,
  reduced by `and` over the whole array, the six results joined by `and`. Where the conjunction is one, every entry
  of the first four inputs (the ones the heads are computed from) is a real number.
-/
import proofs.«413744_j12515534701302_3_alg».proof.Defs
import proofs.«413744_j12515534701302_3_alg».proof.Proof.Gen.Pre_finite_inputs
import proofs.«413744_j12515534701302_3_alg».proof.Proof.Spec
import Idealize.ShloMosaic.Lib.ReduceAll
import Idealize.ShloMosaic.Lib.ValueIdx

noncomputable section

namespace Cert.Finite

open Cert.Pre_finite_inputs Cert.MHA
open Idealize.ShloMosaic Idealize.ShloMosaic.ValueIdx

/-- The word 0x7F800000 is plus infinity. -/
theorem pinf_eq : Ideal.ofBits .f32 0x7F800000#32 = (⊤ : EReal) := by
  simp [Ideal.ofBits, Ideal.ieee]

/-- An extended real whose absolute value max x (-x) lies strictly below plus infinity is a real number:
    at ⊥ the absolute value is ⊤, at ⊤ it is ⊤, and ⊤ < ⊤ fails. -/
theorem entry_real (x : EReal)
    (h : Ideal.cmp .olt (max x (-x)) (Ideal.ofBits .f32 0x7F800000#32) = 1#1) : ∃ r : ℝ, x = (r : EReal) := by
  rw [pinf_eq] at h
  induction x using EReal.rec with
  | bot => simp [Ideal.cmp] at h
  | coe r => exact ⟨r, rfl⟩
  | top => simp [Ideal.cmp] at h

/-- The scalar index type has one element. -/
instance : Subsingleton S_.Idx := ⟨fun a b => funext fun d => d.elim0⟩

/-- An array every entry of which compares, in absolute value, strictly below the broadcast plus infinity holds
    real numbers only; any rank. -/
theorem all_real {T : Shape} (hb : S_.BroadcastsInDim T (![] : Fin 0 → Fin T.rank)) (a : FVec Ideal T .f32)
    (h : ∀ i, cmpf .olt (Host.absf a)
      (broadcastInDim T ![] hb (constant (F := Ideal) S_ .f32 0x7F800000#32)) i = 1#1) : IsReal a := by
  intro i
  have hi := h i
  rw [cmpf_apply] at hi
  have e : broadcastInDim T ![] hb (constant (F := Ideal) S_ .f32 0x7F800000#32) i
      = Ideal.ofBits .f32 0x7F800000#32 := by
    unfold broadcastInDim
    rfl
  rw [e] at hi
  exact entry_real (a i) hi

/-- Under the printed precondition the input, the mask, the fused weight and its bias hold real numbers only. -/
theorem real_inputs [Cert.Pre_finite_inputs.Facts]
    (a0 : FVec Ideal S2x2048x1024 .f32) (a1 : FVec Ideal S2048x2048 .f32) (a2 : FVec Ideal S3072x1024 .f32)
    (a3 : FVec Ideal S3072 .f32) (a4 : FVec Ideal S1024x1024 .f32) (a5 : FVec Ideal S1024 .f32)
    (h : Cert.Pre_finite_inputs.fn (F := Ideal) a0 a1 a2 a3 a4 a5 = fun _ => 1#1) :
    IsReal a0 ∧ IsReal a1 ∧ IsReal a2 ∧ IsReal a3 := by
  have h0 := congrFun h ValueIdx.ix0
  dsimp only [Cert.Pre_finite_inputs.fn, Cert.Pre_finite_inputs.fn_part1] at h0
  have split : ∀ (x y : IVec S_ 1), andi x y ix0 = 1#1 → x ix0 = 1#1 ∧ y ix0 = 1#1 :=
    fun x y e => IntOp.andi_eq_one.1 e
  obtain ⟨h0, -⟩ := split _ _ h0
  obtain ⟨h0, -⟩ := split _ _ h0
  obtain ⟨h0, e3⟩ := split _ _ h0
  obtain ⟨h0, e2⟩ := split _ _ h0
  obtain ⟨e0, e1⟩ := split _ _ h0
  exact ⟨all_real _ a0 (Host.reduce_andi_all _ _ _ _ ix0 e0),
    all_real _ a1 (Host.reduce_andi_all _ _ _ _ ix0 e1),
    all_real _ a2 (Host.reduce_andi_all _ _ _ _ ix0 e2),
    all_real _ a3 (Host.reduce_andi_all _ _ _ _ ix0 e3)⟩

end Cert.Finite

end
-- ==== Proof.lean ====
/-
  The certificate's claims.

  The three frames: the two kernel programs' are the generated frame certificates; the reference has no kernel, and its
  frame is its generated run with the result dropped. The idealization rewrote nothing, so `preserves` is `True`.

  `algebraic`: both idealized programs compute multi-head attention over the extended reals. The kernel program's
  result is `Cert.MHA.outK` of its arguments (the run with its result named, then the fold of @main read back:
  `Chain.result_eq`); the reference's is `Cert.MHA.outR` (`RefValue.ref_result`). The two differ in where the scale
  1/8 = 1/sqrt 64 and the softmax normaliser are applied; under the precondition every entry that feeds the heads is a
  real number (`Finite.real_inputs`), and there the two orders agree (`Cert.MHA.outK_eq_outR`).
-/
import proofs.«413744_j12515534701302_3_alg».proof.Defs
import proofs.«413744_j12515534701302_3_alg».proof.Proof.Gen.Kernel
import proofs.«413744_j12515534701302_3_alg».proof.Proof.Gen.Kernel.Frame
import proofs.«413744_j12515534701302_3_alg».proof.Proof.Gen.KernelIdeal
import proofs.«413744_j12515534701302_3_alg».proof.Proof.Gen.KernelIdeal.Frame
import proofs.«413744_j12515534701302_3_alg».proof.Proof.Gen.ReferenceIdeal
import proofs.«413744_j12515534701302_3_alg».proof.Proof.Gen.ReferenceIdeal.Run
import proofs.«413744_j12515534701302_3_alg».proof.Proof.Gen.Pre_finite_inputs
import proofs.«413744_j12515534701302_3_alg».proof.Proof.Spec
import proofs.«413744_j12515534701302_3_alg».proof.Proof.RunValues
import proofs.«413744_j12515534701302_3_alg».proof.Proof.Chain
import proofs.«413744_j12515534701302_3_alg».proof.Proof.RefValue
import proofs.«413744_j12515534701302_3_alg».proof.Proof.Finite
import Idealize.ShloMosaic.Adequacy
import Idealize.ShloMosaic.Init

noncomputable section

namespace Cert.Proof

open Idealize.ShloMosaic Idealize.ShloMosaic.TcCoe Idealize.SL.Sem Cert.MHA

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at `outK` of the kernel program's arguments. -/
theorem algebraic : Cert.algebraic_KernelIdeal_ReferenceIdeal := by
  intro m ρ m' ρ' hpre hagree
  refine ⟨fun c => outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.RunValues.run_values (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3⟩ := Cert.Finite.real_inputs _ _ _ _ _ _ (hpre c)
    rw [Cert.ReferenceIdeal.RefValue.ref_result, (hagree c).1, (hagree c).2.1, (hagree c).2.2.1, (hagree c).2.2.2.1,
      (hagree c).2.2.2.2.1, (hagree c).2.2.2.2.2]
    exact (outK_eq_outR _ _ _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
